-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x384 : Shape := ⟨3, ![4096, 49, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S_ : Shape := ⟨0, ![]⟩

class Facts : Prop where
  bcast_S_S4096x49x384 : S_.BroadcastsInDim S4096x49x384 (![] : Fin 0 → Fin S4096x49x384.rank)
  reducesTo_S4096x49x384_S_d0_1_2 : S4096x49x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S169x12 : S_.BroadcastsInDim S169x12 (![] : Fin 0 → Fin S169x12.rank)
  reducesTo_S169x12_S_d0_1 : S169x12.ReducesTo [0, 1] S_

variable [Facts]

def fn_part1 {F : FTy → Type} [FloatOps F] (main_arg4 : FVec F S384 .f32) (main_arg5 : FVec F S169x12 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S169x12 .f32 := Host.absf main_arg5
  let main_cst_8 : FVec F S_ .f32 := constant S_ .f32 0x7F800000#32
  let main_v25 : FVec F S169x12 .f32 := broadcastInDim S169x12 ![] bcast_S_S169x12 main_cst_8
  let main_v26 : IVec S169x12 1 := cmpf .olt main_v24 main_v25
  let main_c_9 : IVec S_ 1 := constantI S_ 1 1#1
  let main_v27 : IVec S_ 1 := (fun x v => Host.reduce IntOp.andi x v reducesTo_S169x12_S_d0_1 h_S_) main_v26 main_c_9
  let main_v28 : IVec S_ 1 := andi main_v23 main_v27
  main_v28

def fn {F : FTy → Type} [FloatOps F] (main_arg0 : FVec F S4096x49x384 .f32) (main_arg1 : FVec F S1152x384 .f32) (main_arg2 : FVec F S1152 .f32) (main_arg3 : FVec F S384x384 .f32) (main_arg4 : FVec F S384 .f32) (main_arg5 : FVec F S169x12 .f32) (main_arg6 : IVec S49x49 32) : IVec S_ 1 :=
  let main_v0 : FVec F S4096x49x384 .f32 := Host.absf main_arg0
  let main_cst : FVec F S_ .f32 := constant S_ .f32 0x7F800000#32
  let main_v1 : FVec F S4096x49x384 .f32 := broadcastInDim S4096x49x384 ![] bcast_S_S4096x49x384 main_cst
  let main_v2 : IVec S4096x49x384 1 := cmpf .olt main_v0 main_v1
  let main_c : IVec S_ 1 := constantI S_ 1 1#1
  let main_v3 : IVec S_ 1 := (fun x v => Host.reduce IntOp.andi x v reducesTo_S4096x49x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_arg5 main_v13 main_v16
-- ==== Kernel.lean ====
abbrev S4096x49x384 : Shape := ⟨3, ![4096, 49, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x12 : Shape := ⟨2, ![2401, 12]⟩
abbrev S49x49x12 : Shape := ⟨3, ![49, 49, 12]⟩
abbrev S12x49x49 : Shape := ⟨3, ![12, 49, 49]⟩
abbrev S768 : Shape := ⟨1, ![768]⟩
abbrev S1152x1 : Shape := ⟨2, ![1152, 1]⟩
abbrev S384x1152 : Shape := ⟨2, ![384, 1152]⟩
abbrev S200704x384 : Shape := ⟨2, ![200704, 384]⟩
abbrev S1568x384 : Shape := ⟨2, ![1568, 384]⟩
abbrev S1568x1152 : Shape := ⟨2, ![1568, 1152]⟩
abbrev S1x1152 : Shape := ⟨2, ![1, 1152]⟩
abbrev S32x49x1152 : Shape := ⟨3, ![32, 49, 1152]⟩
abbrev S32x49x32 : Shape := ⟨3, ![32, 49, 32]⟩
abbrev S32x49x49 : Shape := ⟨3, ![32, 49, 49]⟩
abbrev S1x49x49 : Shape := ⟨3, ![1, 49, 49]⟩
abbrev S32x49 : Shape := ⟨2, ![32, 49]⟩
abbrev S32x49x1 : Shape := ⟨3, ![32, 49, 1]⟩
abbrev S32x49x384 : Shape := ⟨3, ![32, 49, 384]⟩
abbrev S1x384 : Shape := ⟨2, ![1, 384]⟩

abbrev nBuf : Space → Nat
  | .hbm => 35
  | .vmem => 9
  | .smem => 0
  | _ => 0

abbrev bufTy : (tb : Table) → Fin (tcTables nBuf tb) → BufTy
  | .hbm, ⟨0, _⟩ => ⟨S4096x49x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S169x12, .f32⟩
  | .hbm, ⟨6, _⟩ => ⟨S49x49, .i32⟩
  | .hbm, ⟨7, _⟩ => ⟨S2401, .i32⟩
  | .hbm, ⟨8, _⟩ => ⟨S_, .i32⟩
  | .hbm, ⟨9, _⟩ => ⟨S2401, .i32⟩
  | .hbm, ⟨10, _⟩ => ⟨S2401, .i1⟩
  | .hbm, ⟨11, _⟩ => ⟨S_, .i32⟩
  | .hbm, ⟨12, _⟩ => ⟨S2401, .i32⟩
  | .hbm, ⟨13, _⟩ => ⟨S2401, .i32⟩
  | .hbm, ⟨14, _⟩ => ⟨S2401, .i32⟩
  | .hbm, ⟨15, _⟩ => ⟨S2401x1, .i32⟩
  | .hbm, ⟨16, _⟩ => ⟨S2401x12, .f32⟩
  | .hbm, ⟨17, _⟩ => ⟨S49x49x12, .f32⟩
  | .hbm, ⟨18, _⟩ => ⟨S12x49x49, .f32⟩
  | .hbm, ⟨19, _⟩ => ⟨S_, .f32⟩
  | .hbm, ⟨20, _⟩ => ⟨S384, .f32⟩
  | .hbm, ⟨21, _⟩ => ⟨S_, .f32⟩
  | .hbm, ⟨22, _⟩ => ⟨S768, .f32⟩
  | .hbm, ⟨23, _⟩ => ⟨S1152, .f32⟩
  | .hbm, ⟨24, _⟩ => ⟨S1152x1, .f32⟩
  | .hbm, ⟨25, _⟩ => ⟨S1152x384, .f32⟩
  | .hbm, ⟨26, _⟩ => ⟨S1152x384, .f32⟩
  | .hbm, ⟨27, _⟩ => ⟨S1152, .f32⟩
  | .hbm, ⟨28, _⟩ => ⟨S384x1152, .f32⟩
  | .hbm, ⟨29, _⟩ => ⟨S384x1152, .bf16⟩
  | .hbm, ⟨30, _⟩ => ⟨S384x384, .f32⟩
  | .hbm, ⟨31, _⟩ => ⟨S384x384, .bf16⟩
  | .hbm, ⟨32, _⟩ => ⟨S200704x384, .f32⟩
  | .hbm, ⟨33, _⟩ => ⟨S200704x384, .f32⟩
  | .hbm, ⟨34, _⟩ => ⟨S4096x49x384, .f32⟩
  | .local _ .vmem, ⟨0, _⟩ => ⟨S1568x384, .f32⟩
  | .local _ .vmem, ⟨1, _⟩ => ⟨S1568x384, .f32⟩
  | .local _ .vmem, ⟨2, _⟩ => ⟨S384x1152, .bf16⟩
  | .local _ .vmem, ⟨3, _⟩ => ⟨S1152, .f32⟩
  | .local _ .vmem, ⟨4, _⟩ => ⟨S384x384, .bf16⟩
  | .local _ .vmem, ⟨5, _⟩ => ⟨S384, .f32⟩
  | .local _ .vmem, ⟨6, _⟩ => ⟨S12x49x49, .f32⟩
  | .local _ .vmem, ⟨7, _⟩ => ⟨S1568x384, .f32⟩
  | .local _ .vmem, ⟨8, _⟩ => ⟨S1568x384, .f32⟩
  | _, _ => ⟨S4096x49x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1568x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x12_S49x49x12 : S2401x12.ShapeCasts S49x49x12
  transposes_S49x49x12_S12x49x49_2_0_1 : S49x49x12.Transposes [2, 0, 1] S12x49x49
  bcast_S_S384 : S_.BroadcastsInDim S384 (![] : Fin 0 → Fin S384.rank)
  bcast_S_S768 : S_.BroadcastsInDim S768 (![] : Fin 0 → Fin S768.rank)
  concatenates_S384_S768_S1152_d0 : Shape.Concatenates [S384, S768] S1152 0
  bcast_S1152_S1152x1_0 : S1152.BroadcastsInDim S1152x1 (![0] : Fin 1 → Fin S1152x1.rank)
  bcast_S1152x1_S1152x384_0_1 : S1152x1.BroadcastsInDim S1152x384 (![0, 1] : Fin 2 → Fin S1152x384.rank)
  transposes_S1152x384_S384x1152_1_0 : S1152x384.Transposes [1, 0] S384x1152
  bitsLt_bf16_f32 : FTy.bits .bf16 < FTy.bits .f32
  transposes_S384x384_S384x384_1_0 : S384x384.Transposes [1, 0] S384x384
  shapeCasts_S4096x49x384_S200704x384 : S4096x49x384.ShapeCasts S200704x384
  inb_S1568x384_S1568x384_0_0 : ∀ a, (![0, 0] : Fin 2 → Nat) a + S1568x384.size a ≤ S1568x384.size a
  h_S1568x384 : 0 < S1568x384.numel
  shapeCasts_S1568x384_S1568x384 : S1568x384.ShapeCasts S1568x384
  inb_S384x1152_S384x1152_0_0 : ∀ a, (![0, 0] : Fin 2 → Nat) a + S384x1152.size a ≤ S384x1152.size a
  h_S384x1152 : 0 < S384x1152.numel
  shapeCasts_S384x1152_S384x1152 : S384x1152.ShapeCasts S384x1152
  inb_S1152_S1152_0 : ∀ a, (![0] : Fin 1 → Nat) a + S1152.size a ≤ S1152.size a
  h_S1152 : 0 < S1152.numel
  shapeCasts_S1152_S1152 : S1152.ShapeCasts S1152
  shapeCasts_S1152_S1x1152 : S1152.ShapeCasts S1x1152
  broadcasts_S1x1152_S1568x1152 : S1x1152.Broadcasts S1568x1152
  shapeCasts_S1568x1152_S32x49x1152 : S1568x1152.ShapeCasts S32x49x1152
  slices_S32x49x1152_o0_0_0_S32x49x32 : S32x49x1152.Slices ![0, 0, 0] S32x49x32
  slices_S32x49x1152_o0_0_384_S32x49x32 : S32x49x1152.Slices ![0, 0, 384] S32x49x32
  slices_S32x49x1152_o0_0_768_S32x49x32 : S32x49x1152.Slices ![0, 0, 768] S32x49x32
  inb_S12x49x49_S1x49x49_0_0_0 : ∀ a, (![0, 0, 0] : Fin 3 → Nat) a + S1x49x49.size a ≤ S12x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S32x49x49 : S1x49x49.Broadcasts S32x49x49
  reduces_S32x49x49_S32x49 : S32x49x49.Reduces [2] S32x49
  shapeCasts_S32x49_S32x49x1 : S32x49.ShapeCasts S32x49x1
  broadcasts_S32x49x1_S32x49x49 : S32x49x1.Broadcasts S32x49x49
  slices_S32x49x1152_o0_0_32_S32x49x32 : S32x49x1152.Slices ![0, 0, 32] S32x49x32
  slices_S32x49x1152_o0_0_416_S32x49x32 : S32x49x1152.Slices ![0, 0, 416] S32x49x32
  slices_S32x49x1152_o0_0_800_S32x49x32 : S32x49x1152.Slices ![0, 0, 800] S32x49x32
  inb_S12x49x49_S1x49x49_1_0_0 : ∀ a, (![1, 0, 0] : Fin 3 → Nat) a + S1x49x49.size a ≤ S12x49x49.size a
  slices_S32x49x1152_o0_0_64_S32x49x32 : S32x49x1152.Slices ![0, 0, 64] S32x49x32
  slices_S32x49x1152_o0_0_448_S32x49x32 : S32x49x1152.Slices ![0, 0, 448] S32x49x32
  slices_S32x49x1152_o0_0_832_S32x49x32 : S32x49x1152.Slices ![0, 0, 832] S32x49x32
  inb_S12x49x49_S1x49x49_2_0_0 : ∀ a, (![2, 0, 0] : Fin 3 → Nat) a + S1x49x49.size a ≤ S12x49x49.size a
  slices_S32x49x1152_o0_0_96_S32x49x32 : S32x49x1152.Slices ![0, 0, 96] S32x49x32
  slices_S32x49x1152_o0_0_480_S32x49x32 : S32x49x1152.Slices ![0, 0, 480] S32x49x32
  slices_S32x49x1152_o0_0_864_S32x49x32 : S32x49x1152.Slices ![0, 0, 864] S32x49x32
  inb_S12x49x49_S1x49x49_3_0_0 : ∀ a, (![3, 0, 0] : Fin 3 → Nat) a + S1x49x49.size a ≤ S12x49x49.size a
  slices_S32x49x1152_o0_0_128_S32x49x32 : S32x49x1152.Slices ![0, 0, 128] S32x49x32
  slices_S32x49x1152_o0_0_512_S32x49x32 : S32x49x1152.Slices ![0, 0, 512] S32x49x32
  slices_S32x49x1152_o0_0_896_S32x49x32 : S32x49x1152.Slices ![0, 0, 896] S32x49x32
  inb_S12x49x49_S1x49x49_4_0_0 : ∀ a, (![4, 0, 0] : Fin 3 → Nat) a + S1x49x49.size a ≤ S12x49x49.size a
  slices_S32x49x1152_o0_0_160_S32x49x32 : S32x49x1152.Slices ![0, 0, 160] S32x49x32
  slices_S32x49x1152_o0_0_544_S32x49x32 : S32x49x1152.Slices ![0, 0, 544] S32x49x32
  slices_S32x49x1152_o0_0_928_S32x49x32 : S32x49x1152.Slices ![0, 0, 928] S32x49x32
  inb_S12x49x49_S1x49x49_5_0_0 : ∀ a, (![5, 0, 0] : Fin 3 → Nat) a + S1x49x49.size a ≤ S12x49x49.size a
  slices_S32x49x1152_o0_0_192_S32x49x32 : S32x49x1152.Slices ![0, 0, 192] S32x49x32
  slices_S32x49x1152_o0_0_576_S32x49x32 : S32x49x1152.Slices ![0, 0, 576] S32x49x32
  slices_S32x49x1152_o0_0_960_S32x49x32 : S32x49x1152.Slices ![0, 0, 960] S32x49x32
  inb_S12x49x49_S1x49x49_6_0_0 : ∀ a, (![6, 0, 0] : Fin 3 → Nat) a + S1x49x49.size a ≤ S12x49x49.size a
  slices_S32x49x1152_o0_0_224_S32x49x32 : S32x49x1152.Slices ![0, 0, 224] S32x49x32
  slices_S32x49x1152_o0_0_608_S32x49x32 : S32x49x1152.Slices ![0, 0, 608] S32x49x32
  slices_S32x49x1152_o0_0_992_S32x49x32 : S32x49x1152.Slices ![0, 0, 992] S32x49x32
  inb_S12x49x49_S1x49x49_7_0_0 : ∀ a, (![7, 0, 0] : Fin 3 → Nat) a + S1x49x49.size a ≤ S12x49x49.size a
  slices_S32x49x1152_o0_0_256_S32x49x32 : S32x49x1152.Slices ![0, 0, 256] S32x49x32
  slices_S32x49x1152_o0_0_640_S32x49x32 : S32x49x1152.Slices ![0, 0, 640] S32x49x32
  slices_S32x49x1152_o0_0_1024_S32x49x32 : S32x49x1152.Slices ![0, 0, 1024] S32x49x32
  inb_S12x49x49_S1x49x49_8_0_0 : ∀ a, (![8, 0, 0] : Fin 3 → Nat) a + S1x49x49.size a ≤ S12x49x49.size a
  slices_S32x49x1152_o0_0_288_S32x49x32 : S32x49x1152.Slices ![0, 0, 288] S32x49x32
  slices_S32x49x1152_o0_0_672_S32x49x32 : S32x49x1152.Slices ![0, 0, 672] S32x49x32
  slices_S32x49x1152_o0_0_1056_S32x49x32 : S32x49x1152.Slices ![0, 0, 1056] S32x49x32
  inb_S12x49x49_S1x49x49_9_0_0 : ∀ a, (![9, 0, 0] : Fin 3 → Nat) a + S1x49x49.size a ≤ S12x49x49.size a
  slices_S32x49x1152_o0_0_320_S32x49x32 : S32x49x1152.Slices ![0, 0, 320] S32x49x32
  slices_S32x49x1152_o0_0_704_S32x49x32 : S32x49x1152.Slices ![0, 0, 704] S32x49x32
  slices_S32x49x1152_o0_0_1088_S32x49x32 : S32x49x1152.Slices ![0, 0, 1088] S32x49x32
  inb_S12x49x49_S1x49x49_10_0_0 : ∀ a, (![10, 0, 0] : Fin 3 → Nat) a + S1x49x49.size a ≤ S12x49x49.size a
  slices_S32x49x1152_o0_0_352_S32x49x32 : S32x49x1152.Slices ![0, 0, 352] S32x49x32
  slices_S32x49x1152_o0_0_736_S32x49x32 : S32x49x1152.Slices ![0, 0, 736] S32x49x32
  slices_S32x49x1152_o0_0_1120_S32x49x32 : S32x49x1152.Slices ![0, 0, 1120] S32x49x32
  inb_S12x49x49_S1x49x49_11_0_0 : ∀ a, (![11, 0, 0] : Fin 3 → Nat) a + S1x49x49.size a ≤ S12x49x49.size a
  concatenates_S32x49x32_S32x49x32_S32x49x32_S32x49x32_S32x49x32_S32x49x32_S32x49x32_S32x49x32_S32x49x32_S32x49x32_S32x49x32_S32x49x32_S32x49x384_d2 : Shape.Concatenates [S32x49x32, S32x49x32, S32x49x32, S32x49x32, S32x49x32, S32x49x32, S32x49x32, S32x49x32, S32x49x32, S32x49x32, S32x49x32, S32x49x32] S32x49x384 2
  shapeCasts_S32x49x384_S1568x384 : S32x49x384.ShapeCasts S1568x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384_S384_0 : ∀ a, (![0] : Fin 1 → Nat) a + S384.size a ≤ S384.size a
  h_S384 : 0 < S384.numel
  shapeCasts_S384_S1x384 : S384.ShapeCasts S1x384
  broadcasts_S1x384_S1568x384 : S1x384.Broadcasts S1568x384
  shapeCasts_S200704x384_S4096x49x384 : S200704x384.ShapeCasts S4096x49x384
  gather_S169x12_S2401x1_S2401x12_1_0_n_n_0_1_112_wf : GatherDims.WF S169x12 S2401x1 S2401x12 [1] [0] [] [0] [] 1 ![1, 12]
  dot_S1568x384_S384x1152_S1568x1152_1_0_0_1_n_n_wf : DotDims.WF S1568x384 S384x1152 S1568x1152 [1] [0] [0] [1] [] []
  dot_S32x49x32_S32x49x32_S32x49x49_2_2_1_1_0_0_wf : DotDims.WF S32x49x32 S32x49x32 S32x49x49 [2] [2] [1] [1] [0] [0]
  dot_S32x49x49_S32x49x32_S32x49x32_2_1_1_2_0_0_wf : DotDims.WF S32x49x49 S32x49x32 S32x49x32 [2] [1] [1] [2] [0] [0]
  dot_S1568x384_S384x384_S1568x384_1_0_0_1_n_n_wf : DotDims.WF S1568x384 S384x384 S1568x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x384.size a ≤ S200704x384.size a
  hwx0_0 : ∀ i : grid0.Coords, EltTy.bits .f32 = 32 ∨ (Rect.block (s := S200704x384) S1568x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x1152.size a ≤ S384x1152.size a
  hwx0_1 : ∀ i : grid0.Coords, EltTy.bits .bf16 = 32 ∨ (Rect.block (s := S384x1152) S384x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152.size a ≤ S1152.size a
  hwx0_2 : ∀ i : grid0.Coords, EltTy.bits .f32 = 32 ∨ (Rect.block (s := S1152) S1152.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x49x49.size a ≤ S12x49x49.size a
  hwx0_5 : ∀ i : grid0.Coords, EltTy.bits .f32 = 32 ∨ (Rect.block (s := S12x49x49) S12x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1568x384.size a ≤ S200704x384.size a
  hwx0_6 : ∀ i : grid0.Coords, EltTy.bits .f32 = 32 ∨ (Rect.block (s := S200704x384) S1568x384.size (cc0_transform_6 i) (hinb0_6 i)).WholeWords (EltTy.packing .f32)

variable [Facts₀]

def gather_S169x12_S2401x1_S2401x12_1_0_n_n_0_1_112 : GatherDims S169x12 S2401x1 S2401x12 where
  offsetDims := [1]
  collapsedSliceDims := [0]
  operandBatchingDims := []
  startIndicesBatchingDims := []
  startIndexMap := [0]
  indexVectorDim := 1
  sliceSizes := ![1, 12]
  wf := gather_S169x12_S2401x1_S2401x12_1_0_n_n_0_1_112_wf
def dot_S1568x384_S384x1152_S1568x1152_1_0_0_1_n_n : DotDims S1568x384 S384x1152 S1568x1152 where
  lhsContracting := [1]
  rhsContracting := [0]
  lhsNonContracting := [0]
  rhsNonContracting := [1]
  lhsBatch := []
  rhsBatch := []
  wf := dot_S1568x384_S384x1152_S1568x1152_1_0_0_1_n_n_wf
def dot_S32x49x32_S32x49x32_S32x49x49_2_2_1_1_0_0 : DotDims S32x49x32 S32x49x32 S32x49x49 where
  lhsContracting := [2]
  rhsContracting := [2]
  lhsNonContracting := [1]
  rhsNonContracting := [1]
  lhsBatch := [0]
  rhsBatch := [0]
  wf := dot_S32x49x32_S32x49x32_S32x49x49_2_2_1_1_0_0_wf
def dot_S32x49x49_S32x49x32_S32x49x32_2_1_1_2_0_0 : DotDims S32x49x49 S32x49x32 S32x49x32 where
  lhsContracting := [2]
  rhsContracting := [1]
  lhsNonContracting := [1]
  rhsNonContracting := [2]
  lhsBatch := [0]
  rhsBatch := [0]
  wf := dot_S32x49x49_S32x49x32_S32x49x32_2_1_1_2_0_0_wf
def dot_S1568x384_S384x384_S1568x384_1_0_0_1_n_n : DotDims S1568x384 S384x384 S1568x384 where
  lhsContracting := [1]
  rhsContracting := [0]
  lhsNonContracting := [0]
  rhsNonContracting := [1]
  lhsBatch := []
  rhsBatch := []
  wf := dot_S1568x384_S384x384_S1568x384_1_0_0_1_n_n_wf

abbrev win0_0 : Pipeline.Window sig grid0 :=
  Pipeline.Window.ofSpec (Memref.whole main_v21) S1568x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S384x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S12x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1568x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x49x384 : Shape := ⟨3, ![4096, 49, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S169x12 : Shape := ⟨2, ![169, 12]⟩
abbrev S49x49 : Shape := ⟨2, ![49, 49]⟩
abbrev S4096x49x1152 : Shape := ⟨3, ![4096, 49, 1152]⟩
abbrev S1x1x1152 : Shape := ⟨3, ![1, 1, 1152]⟩
abbrev S4096x49x3x12x32 : Shape := ⟨5, ![4096, 49, 3, 12, 32]⟩
abbrev S3x4096x12x49x32 : Shape := ⟨5, ![3, 4096, 12, 49, 32]⟩
abbrev S1x4096x12x49x32 : Shape := ⟨5, ![1, 4096, 12, 49, 32]⟩
abbrev S4096x12x49x32 : Shape := ⟨4, ![4096, 12, 49, 32]⟩
abbrev S_ : Shape := ⟨0, ![]⟩
abbrev S4096x12x49x49 : Shape := ⟨4, ![4096, 12, 49, 49]⟩
abbrev S2401 : Shape := ⟨1, ![2401]⟩
abbrev S2401x1 : Shape := ⟨2, ![2401, 1]⟩
abbrev S2401x12 : Shape := ⟨2, ![2401, 12]⟩
abbrev S49x49x12 : Shape := ⟨3, ![49, 49, 12]⟩
abbrev S12x49x49 : Shape := ⟨3, ![12, 49, 49]⟩
abbrev S1x12x49x49 : Shape := ⟨4, ![1, 12, 49, 49]⟩
abbrev S4096x12x49 : Shape := ⟨3, ![4096, 12, 49]⟩
abbrev S4096x12x49x1 : Shape := ⟨4, ![4096, 12, 49, 1]⟩
abbrev S4096x12x32x49 : Shape := ⟨4, ![4096, 12, 32, 49]⟩
abbrev S4096x49x12x32 : Shape := ⟨4, ![4096, 49, 12, 32]⟩
abbrev S1x1x384 : Shape := ⟨3, ![1, 1, 384]⟩

abbrev nBuf : Space → Nat
  | .hbm => 59
  | .vmem => 0
  | .smem => 0
  | _ => 0

abbrev bufTy : (tb : Table) → Fin (tcTables nBuf tb) → BufTy
  | .hbm, ⟨0, _⟩ => ⟨S4096x49x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S169x12, .f32⟩
  | .hbm, ⟨6, _⟩ => ⟨S49x49, .i32⟩
  | .hbm, ⟨7, _⟩ => ⟨S4096x49x1152, .f32⟩
  | .hbm, ⟨8, _⟩ => ⟨S1x1x1152, .f32⟩
  | .hbm, ⟨9, _⟩ => ⟨S4096x49x1152, .f32⟩
  | .hbm, ⟨10, _⟩ => ⟨S4096x49x1152, .f32⟩
  | .hbm, ⟨11, _⟩ => ⟨S4096x49x3x12x32, .f32⟩
  | .hbm, ⟨12, _⟩ => ⟨S3x4096x12x49x32, .f32⟩
  | .hbm, ⟨13, _⟩ => ⟨S1x4096x12x49x32, .f32⟩
  | .hbm, ⟨14, _⟩ => ⟨S4096x12x49x32, .f32⟩
  | .hbm, ⟨15, _⟩ => ⟨S1x4096x12x49x32, .f32⟩
  | .hbm, ⟨16, _⟩ => ⟨S4096x12x49x32, .f32⟩
  | .hbm, ⟨17, _⟩ => ⟨S1x4096x12x49x32, .f32⟩
  | .hbm, ⟨18, _⟩ => ⟨S4096x12x49x32, .f32⟩
  | .hbm, ⟨19, _⟩ => ⟨S_, .f32⟩
  | .hbm, ⟨20, _⟩ => ⟨S4096x12x49x32, .f32⟩
  | .hbm, ⟨21, _⟩ => ⟨S4096x12x49x32, .f32⟩
  | .hbm, ⟨22, _⟩ => ⟨S4096x12x49x49, .f32⟩
  | .hbm, ⟨23, _⟩ => ⟨S2401, .i32⟩
  | .hbm, ⟨24, _⟩ => ⟨S_, .i32⟩
  | .hbm, ⟨25, _⟩ => ⟨S2401, .i32⟩
  | .hbm, ⟨26, _⟩ => ⟨S2401, .i1⟩
  | .hbm, ⟨27, _⟩ => ⟨S_, .i32⟩
  | .hbm, ⟨28, _⟩ => ⟨S2401, .i32⟩
  | .hbm, ⟨29, _⟩ => ⟨S2401, .i32⟩
  | .hbm, ⟨30, _⟩ => ⟨S2401, .i32⟩
  | .hbm, ⟨31, _⟩ => ⟨S2401x1, .i32⟩
  | .hbm, ⟨32, _⟩ => ⟨S2401x12, .f32⟩
  | .hbm, ⟨33, _⟩ => ⟨S49x49x12, .f32⟩
  | .hbm, ⟨34, _⟩ => ⟨S12x49x49, .f32⟩
  | .hbm, ⟨35, _⟩ => ⟨S1x12x49x49, .f32⟩
  | .hbm, ⟨36, _⟩ => ⟨S4096x12x49x49, .f32⟩
  | .hbm, ⟨37, _⟩ => ⟨S4096x12x49x49, .f32⟩
  | .hbm, ⟨38, _⟩ => ⟨S_, .f32⟩
  | .hbm, ⟨39, _⟩ => ⟨S4096x12x49, .f32⟩
  | .hbm, ⟨40, _⟩ => ⟨S_, .f32⟩
  | .hbm, ⟨41, _⟩ => ⟨S4096x12x49, .f32⟩
  | .hbm, ⟨42, _⟩ => ⟨S4096x12x49, .f32⟩
  | .hbm, ⟨43, _⟩ => ⟨S4096x12x49x1, .f32⟩
  | .hbm, ⟨44, _⟩ => ⟨S4096x12x49x49, .f32⟩
  | .hbm, ⟨45, _⟩ => ⟨S4096x12x49x49, .f32⟩
  | .hbm, ⟨46, _⟩ => ⟨S4096x12x49x49, .f32⟩
  | .hbm, ⟨47, _⟩ => ⟨S_, .f32⟩
  | .hbm, ⟨48, _⟩ => ⟨S4096x12x49, .f32⟩
  | .hbm, ⟨49, _⟩ => ⟨S4096x12x49x1, .f32⟩
  | .hbm, ⟨50, _⟩ => ⟨S4096x12x49x49, .f32⟩
  | .hbm, ⟨51, _⟩ => ⟨S4096x12x49x49, .f32⟩
  | .hbm, ⟨52, _⟩ => ⟨S4096x12x32x49, .f32⟩
  | .hbm, ⟨53, _⟩ => ⟨S4096x49x12x32, .f32⟩
  | .hbm, ⟨54, _⟩ => ⟨S4096x49x384, .f32⟩
  | .hbm, ⟨55, _⟩ => ⟨S4096x49x384, .f32⟩
  | .hbm, ⟨56, _⟩ => ⟨S1x1x384, .f32⟩
  | .hbm, ⟨57, _⟩ => ⟨S4096x49x384, .f32⟩
  | .hbm, ⟨58, _⟩ => ⟨S4096x49x384, .f32⟩
  | _, _ => ⟨S4096x49x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  bcast_S1152_S1x1x1152_2 : S1152.BroadcastsInDim S1x1x1152 (![2] : Fin 1 → Fin S1x1x1152.rank)
  bcast_S1x1x1152_S4096x49x1152_0_1_2 : S1x1x1152.BroadcastsInDim S4096x49x1152 (![0, 1, 2] : Fin 3 → Fin S4096x49x1152.rank)
  shapeCasts_S4096x49x1152_S4096x49x3x12x32 : S4096x49x1152.ShapeCasts S4096x49x3x12x32
  transposes_S4096x49x3x12x32_S3x4096x12x49x32_2_0_3_1_4 : S4096x49x3x12x32.Transposes [2, 0, 3, 1, 4] S3x4096x12x49x32
  slices_S3x4096x12x49x32_S1x4096x12x49x32_0_0_0_0_0 : S3x4096x12x49x32.Slices ![0, 0, 0, 0, 0] S1x4096x12x49x32
  shapeCasts_S1x4096x12x49x32_S4096x12x49x32 : S1x4096x12x49x32.ShapeCasts S4096x12x49x32
  slices_S3x4096x12x49x32_S1x4096x12x49x32_1_0_0_0_0 : S3x4096x12x49x32.Slices ![1, 0, 0, 0, 0] S1x4096x12x49x32
  slices_S3x4096x12x49x32_S1x4096x12x49x32_2_0_0_0_0 : S3x4096x12x49x32.Slices ![2, 0, 0, 0, 0] S1x4096x12x49x32
  bcast_S_S4096x12x49x32 : S_.BroadcastsInDim S4096x12x49x32 (![] : Fin 0 → Fin S4096x12x49x32.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x12_S49x49x12 : S2401x12.ShapeCasts S49x49x12
  transposes_S49x49x12_S12x49x49_2_0_1 : S49x49x12.Transposes [2, 0, 1] S12x49x49
  bcast_S12x49x49_S1x12x49x49_1_2_3 : S12x49x49.BroadcastsInDim S1x12x49x49 (![1, 2, 3] : Fin 3 → Fin S1x12x49x49.rank)
  bcast_S1x12x49x49_S4096x12x49x49_0_1_2_3 : S1x12x49x49.BroadcastsInDim S4096x12x49x49 (![0, 1, 2, 3] : Fin 4 → Fin S4096x12x49x49.rank)
  reducesTo_S4096x12x49x49_S4096x12x49_d3 : S4096x12x49x49.ReducesTo [3] S4096x12x49
  h_S_ : 0 < S_.numel
  bcast_S_S4096x12x49 : S_.BroadcastsInDim S4096x12x49 (![] : Fin 0 → Fin S4096x12x49.rank)
  bcast_S4096x12x49_S4096x12x49x1_0_1_2 : S4096x12x49.BroadcastsInDim S4096x12x49x1 (![0, 1, 2] : Fin 3 → Fin S4096x12x49x1.rank)
  bcast_S4096x12x49x1_S4096x12x49x49_0_1_2_3 : S4096x12x49x1.BroadcastsInDim S4096x12x49x49 (![0, 1, 2, 3] : Fin 4 → Fin S4096x12x49x49.rank)
  transposes_S4096x12x32x49_S4096x49x12x32_0_3_1_2 : S4096x12x32x49.Transposes [0, 3, 1, 2] S4096x49x12x32
  shapeCasts_S4096x49x12x32_S4096x49x384 : S4096x49x12x32.ShapeCasts S4096x49x384
  bcast_S384_S1x1x384_2 : S384.BroadcastsInDim S1x1x384 (![2] : Fin 1 → Fin S1x1x384.rank)
  bcast_S1x1x384_S4096x49x384_0_1_2 : S1x1x384.BroadcastsInDim S4096x49x384 (![0, 1, 2] : Fin 3 → Fin S4096x49x384.rank)
  dot_S4096x49x384_S1152x384_S4096x49x1152_2_1_01_0_n_n_wf : DotDims.WF S4096x49x384 S1152x384 S4096x49x1152 [2] [1] [0, 1] [0] [] []
  dot_S4096x12x49x32_S4096x12x49x32_S4096x12x49x49_3_3_2_2_01_01_wf : DotDims.WF S4096x12x49x32 S4096x12x49x32 S4096x12x49x49 [3] [3] [2] [2] [0, 1] [0, 1]
  gather_S169x12_S2401x1_S2401x12_1_0_n_n_0_1_112_wf : GatherDims.WF S169x12 S2401x1 S2401x12 [1] [0] [] [0] [] 1 ![1, 12]
  dot_S4096x12x49x32_S4096x12x49x49_S4096x12x32x49_2_3_3_2_01_01_wf : DotDims.WF S4096x12x49x32 S4096x12x49x49 S4096x12x32x49 [2] [3] [3] [2] [0, 1] [0, 1]
  dot_S4096x49x384_S384x384_S4096x49x384_2_1_01_0_n_n_wf : DotDims.WF S4096x49x384 S384x384 S4096x49x384 [2] [1] [0, 1] [0] [] []

variable [Facts₀]

def dot_S4096x49x384_S1152x384_S4096x49x1152_2_1_01_0_n_n : DotDims S4096x49x384 S1152x384 S4096x49x1152 where
  lhsContracting := [2]
  rhsContracting := [1]
  lhsNonContracting := [0, 1]
  rhsNonContracting := [0]
  lhsBatch := []
  rhsBatch := []
  wf := dot_S4096x49x384_S1152x384_S4096x49x1152_2_1_01_0_n_n_wf
def dot_S4096x12x49x32_S4096x12x49x32_S4096x12x49x49_3_3_2_2_01_01 : DotDims S4096x12x49x32 S4096x12x49x32 S4096x12x49x49 where
  lhsContracting := [3]
  rhsContracting := [3]
  lhsNonContracting := [2]
  rhsNonContracting := [2]
  lhsBatch := [0, 1]
  rhsBatch := [0, 1]
  wf := dot_S4096x12x49x32_S4096x12x49x32_S4096x12x49x49_3_3_2_2_01_01_wf
def gather_S169x12_S2401x1_S2401x12_1_0_n_n_0_1_112 : GatherDims S169x12 S2401x1 S2401x12 where
  offsetDims := [1]
  collapsedSliceDims := [0]
  operandBatchingDims := []
  startIndicesBatchingDims := []
  startIndexMap := [0]
  indexVectorDim := 1
  sliceSizes := ![1, 12]
  wf := gather_S169x12_S2401x1_S2401x12_1_0_n_n_0_1_112_wf
def dot_S4096x12x49x32_S4096x12x49x49_S4096x12x32x49_2_3_3_2_01_01 : DotDims S4096x12x49x32 S4096x12x49x49 S4096x12x32x49 where
  lhsContracting := [2]
  rhsContracting := [3]
  lhsNonContracting := [3]
  rhsNonContracting := [2]
  lhsBatch := [0, 1]
  rhsBatch := [0, 1]
  wf := dot_S4096x12x49x32_S4096x12x49x49_S4096x12x32x49_2_3_3_2_01_01_wf
def dot_S4096x49x384_S384x384_S4096x49x384_2_1_01_0_n_n : DotDims S4096x49x384 S384x384 S4096x49x384 where
  lhsContracting := [2]
  rhsContracting := [1]
  lhsNonContracting := [0, 1]
  rhsNonContracting := [0]
  lhsBatch := []
  rhsBatch := []
  wf := dot_S4096x49x384_S384x384_S4096x49x384_2_1_01_0_n_n_wf

class Facts : Prop extends Facts₀ where

variable [Facts]
-- ==== Proof.WindowAttention.lean ====
/-
  Windowed multi-head self-attention with a relative-position bias, as one function over the extended reals.

  A window holds 49 tokens of 384 channels. Its 49 rows of the fused projection (1152 columns: queries, keys and values,
  each 12 heads of 32 channels) determine its output: per head the scores `q · k + bias`, a softmax along each row of
  scores (the exponential of the score less the row's largest, over the row's sum of those), the weighted sum of the
  values, the heads laid side by side, and the output projection with its bias. The window's result depends on nothing
  outside those 49 rows, so the whole array is the same function window by window.

  The queries' scale `s` enters in one of two ways: folded into the projection's weight and bias rows beforehand
  (`qkvFolded`), or applied to the projected queries afterwards (`qkvScaled`). Both are stated here; that they agree on
  finite data is distributivity over a finite sum, proved where the finiteness is at hand.
-/
import Idealize.ShloMosaic.PureOps.Ideal
import Idealize.ShloMosaic.Lib.ValueIdx

noncomputable section

open scoped BigOperators

namespace Cert.WindowAttention

open Idealize.ShloMosaic

/-- The largest entry of a row of 49 scores, taken from `-∞` upwards. -/
def rowMax (a : Fin 49 → EReal) : EReal :=
  (Finset.univ : Finset (Fin 49)).fold max (Ideal.ofBits .f32 0xFF800000#32) a

/-- A score's exponential after the row's largest entry is taken off. -/
def rowExp (a : Fin 49 → EReal) (m : Fin 49) : EReal := Ideal.exp (a m - rowMax a)

/-- The softmax weight of entry `m` of the row. -/
def rowSoftmax (a : Fin 49 → EReal) (m : Fin 49) : EReal := Ideal.div (rowExp a m) (∑ k : Fin 49, rowExp a k)

/-- The score of query token `n` against key token `m` in one head: their inner product over the head's 32 channels, plus
    the pair's position bias. -/
def scores (q k : Fin 49 → Fin 32 → EReal) (b : Fin 49 → Fin 49 → EReal) (n m : Fin 49) : EReal :=
  (∑ e : Fin 32, q n e * k m e) + b n m

/-- One head's output at token `n`, channel `d`: the values weighted by the softmax of token `n`'s scores. -/
def headOut (q k v : Fin 49 → Fin 32 → EReal) (b : Fin 49 → Fin 49 → EReal) (n : Fin 49) (d : Fin 32) : EReal :=
  ∑ m : Fin 49, rowSoftmax (scores q k b n) m * v m d

/-- The head a channel of the 384 belongs to, -/
def headOf (c : Fin 384) : Fin 12 := ⟨c.val / 32, by have := c.isLt; omega⟩
/-- and its position inside that head. -/
def chanOf (c : Fin 384) : Fin 32 := ⟨c.val % 32, Nat.mod_lt _ (by decide)⟩

/-- The fused projection's column that holds channel `e` of head `h`'s queries, -/
def qCol (h : Fin 12) (e : Fin 32) : Fin 1152 := ⟨32 * h.val + e.val, by have := h.isLt; have := e.isLt; omega⟩
/-- keys, -/
def kCol (h : Fin 12) (e : Fin 32) : Fin 1152 := ⟨384 + (32 * h.val + e.val), by have := h.isLt; have := e.isLt; omega⟩
/-- and values. -/
def vCol (h : Fin 12) (e : Fin 32) : Fin 1152 := ⟨768 + (32 * h.val + e.val), by have := h.isLt; have := e.isLt; omega⟩

/-- Head `h`'s output for one window, from the window's 49 rows of the fused projection. -/
def winHead (qkv : Fin 49 → Fin 1152 → EReal) (B : Fin 12 → Fin 49 → Fin 49 → EReal) (h : Fin 12) (n : Fin 49) (d : Fin 32) : EReal :=
  headOut (fun n' e => qkv n' (qCol h e)) (fun n' e => qkv n' (kCol h e)) (fun n' e => qkv n' (vCol h e)) (B h) n d

/-- One window's output at token `n`, output channel `o`: the heads' outputs side by side (channel `c` is head `c / 32`,
    position `c % 32`) against row `o` of the output projection `pw`, plus its bias `pb`. -/
def winOut (qkv : Fin 49 → Fin 1152 → EReal) (B : Fin 12 → Fin 49 → Fin 49 → EReal) (pw : Fin 384 → Fin 384 → EReal)
    (pb : Fin 384 → EReal) (n : Fin 49) (o : Fin 384) : EReal :=
  (∑ c : Fin 384, winHead qkv B (headOf c) n (chanOf c) * pw o c) + pb o

/-- The whole result, window by window. -/
def attnOut (qkv : Fin 4096 → Fin 49 → Fin 1152 → EReal) (B : Fin 12 → Fin 49 → Fin 49 → EReal)
    (pw : Fin 384 → Fin 384 → EReal) (pb : Fin 384 → EReal) : (⟨3, ![4096, 49, 384]⟩ : Shape).Idx → EReal :=
  fun i => winOut (qkv (i 0)) B pw pb (i 1) (i 2)

/-- The fused projection with a per-column factor `σ` folded into the weight's and the bias's rows beforehand. -/
def qkvFolded (X : Fin 4096 → Fin 49 → Fin 384 → EReal) (W : Fin 1152 → Fin 384 → EReal) (b σ : Fin 1152 → EReal)
    (w : Fin 4096) (n : Fin 49) (j : Fin 1152) : EReal :=
  (∑ c : Fin 384, X w n c * (W j c * σ j)) + b j * σ j

/-- The fused projection with the factor `s` applied afterwards, to the query columns (the first 384) only. -/
def qkvScaled (X : Fin 4096 → Fin 49 → Fin 384 → EReal) (W : Fin 1152 → Fin 384 → EReal) (b : Fin 1152 → EReal) (s : EReal)
    (w : Fin 4096) (n : Fin 49) (j : Fin 1152) : EReal :=
  if j.val < 384 then ((∑ c : Fin 384, X w n c * W j c) + b j) * s else (∑ c : Fin 384, X w n c * W j c) + b j

/-- The per-column factor of the folded form: `s` on the query columns, `1` on the rest. -/
def foldFactor (s one : EReal) (j : Fin 1152) : EReal := if j.val < 384 then s else one

end Cert.WindowAttention

end
-- ==== Proof.KernelHead.lean ====
/-
  One attention head inside the kernel body, read at an entry.

  For a block of 32 windows the body computes, head by head, from three 32-channel slices `q`, `k`, `v` of the fused
  projection and the head's slab of position biases: the batched product `q · kᵀ` over the 32 channels, plus the bias
  broadcast over the windows; along each row of 49 scores the largest entry, the exponentials of the differences and
  their sum; the quotient; and the batched product of those weights with `v`. Over the extended reals, at window `w`,
  token `n`, channel `d`, that is the textbook head output of window `w`'s 49 rows.
-/
import proofs.«419807_j43267500540185_3_alg».proof.KernelIdeal
import proofs.«419807_j43267500540185_3_alg».proof.Proof.Gen.KernelIdeal
import proofs.«419807_j43267500540185_3_alg».proof.Proof.WindowAttention
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HeadValue

open Cert.KernelIdeal Cert.KernelIdeal.Gen Idealize.ShloMosaic Idealize.ShloMosaic.ValueIdx Cert.WindowAttention

variable {F : FTy → Type} [FloatOps F]

/-- One head of the body, as the body spells it: scores, softmax along the last axis, weighted values. -/
def headChain (q k v : FVec F S32x49x32 .bf16) (b1 : Vec F S1x49x49 .f32) : FVec F S32x49x32 .bf16 :=
  have z0 : FVec F S32x49x49 .f32 := constant S32x49x49 .f32 0x00000000#32
  have qk : FVec F S32x49x49 .f32 := matmul dot_S32x49x32_S32x49x32_S32x49x49_2_2_1_1_0_0 none q k z0
  have b2 : FVec F S49x49 .f32 := shapeCast S49x49 b1 shapeCasts_S1x49x49_S49x49
  have b3 : FVec F S1x49x49 .f32 := shapeCast S1x49x49 b2 shapeCasts_S49x49_S1x49x49
  have bb : FVec F S32x49x49 .f32 := broadcastTo S32x49x49 b3 broadcasts_S1x49x49_S32x49x49
  have sc : FVec F S32x49x49 .f32 := addf qk bb
  have mx : FVec F S32x49 .f32 := multiReduction .maximumf [2] S32x49 sc 0xFF800000#32 reduces_S32x49x49_S32x49 (.inl rfl) rfl
  have mx1 : FVec F S32x49x1 .f32 := shapeCast S32x49x1 mx shapeCasts_S32x49_S32x49x1
  have mxb : FVec F S32x49x49 .f32 := broadcastTo S32x49x49 mx1 broadcasts_S32x49x1_S32x49x49
  have df : FVec F S32x49x49 .f32 := subf sc mxb
  have ex : FVec F S32x49x49 .f32 := exp df
  have sm : FVec F S32x49 .f32 := multiReduction .add [2] S32x49 ex 0x00000000#32 reduces_S32x49x49_S32x49 (.inl rfl) rfl
  have sm1 : FVec F S32x49x1 .f32 := shapeCast S32x49x1 sm shapeCasts_S32x49_S32x49x1
  have smb : FVec F S32x49x49 .f32 := broadcastTo S32x49x49 sm1 broadcasts_S32x49x1_S32x49x49
  have pr : FVec F S32x49x49 .f32 := divf ex smb
  have prb : FVec F S32x49x49 .bf16 := truncf .bf16 pr bitsLt_bf16_f32
  have z1 : FVec F S32x49x32 .f32 := constant S32x49x32 .f32 0x00000000#32
  have ov : FVec F S32x49x32 .f32 := matmul dot_S32x49x49_S32x49x32_S32x49x32_2_1_1_2_0_0 none prb v z1
  have ovb : FVec F S32x49x32 .bf16 := truncf .bf16 ov bitsLt_bf16_f32
  ovb

/-! ### The scores' product: both operands contracted on their channel axis, batched over the windows -/

theorem qk_lhs_0 (i : S32x49x49.Idx) (c : dot_S32x49x32_S32x49x32_S32x49x49_2_2_1_1_0_0.contr.Idx) :
    (dot_S32x49x32_S32x49x32_S32x49x49_2_2_1_1_0_0.lhsIdx i c 0).val = (i 0).val := by
  unfold DotDims.lhsIdx
  rw [dif_pos (show (0 : Fin S32x49x32.rank) ∈ dot_S32x49x32_S32x49x32_S32x49x49_2_2_1_1_0_0.lhsBatch by decide)]
  rfl
theorem qk_lhs_1 (i : S32x49x49.Idx) (c : dot_S32x49x32_S32x49x32_S32x49x49_2_2_1_1_0_0.contr.Idx) :
    (dot_S32x49x32_S32x49x32_S32x49x49_2_2_1_1_0_0.lhsIdx i c 1).val = (i 1).val := by
  unfold DotDims.lhsIdx
  rw [dif_neg (show ¬(1 : Fin S32x49x32.rank) ∈ dot_S32x49x32_S32x49x32_S32x49x49_2_2_1_1_0_0.lhsBatch by decide),
    dif_pos (show (1 : Fin S32x49x32.rank) ∈ dot_S32x49x32_S32x49x32_S32x49x49_2_2_1_1_0_0.lhsNonContracting by decide)]
  rfl
theorem qk_lhs_2 (i : S32x49x49.Idx) (c : dot_S32x49x32_S32x49x32_S32x49x49_2_2_1_1_0_0.contr.Idx) :
    (dot_S32x49x32_S32x49x32_S32x49x49_2_2_1_1_0_0.lhsIdx i c 2).val = (c ⟨0, by decide⟩).val :=
  dot_S32x49x32_S32x49x32_S32x49x49_2_2_1_1_0_0.lhsIdx_val_of_single rfl i c
theorem qk_rhs_0 (i : S32x49x49.Idx) (c : dot_S32x49x32_S32x49x32_S32x49x49_2_2_1_1_0_0.contr.Idx) :
    (dot_S32x49x32_S32x49x32_S32x49x49_2_2_1_1_0_0.rhsIdx i c 0).val = (i 0).val := by
  unfold DotDims.rhsIdx
  rw [dif_pos (show (0 : Fin S32x49x32.rank) ∈ dot_S32x49x32_S32x49x32_S32x49x49_2_2_1_1_0_0.rhsBatch by decide)]
  rfl
theorem qk_rhs_1 (i : S32x49x49.Idx) (c : dot_S32x49x32_S32x49x32_S32x49x49_2_2_1_1_0_0.contr.Idx) :
    (dot_S32x49x32_S32x49x32_S32x49x49_2_2_1_1_0_0.rhsIdx i c 1).val = (i 2).val := by
  unfold DotDims.rhsIdx
  rw [dif_neg (show ¬(1 : Fin S32x49x32.rank) ∈ dot_S32x49x32_S32x49x32_S32x49x49_2_2_1_1_0_0.rhsBatch by decide),
    dif_pos (show (1 : Fin S32x49x32.rank) ∈ dot_S32x49x32_S32x49x32_S32x49x49_2_2_1_1_0_0.rhsNonContracting by decide)]
  rfl
theorem qk_rhs_2 (i : S32x49x49.Idx) (c : dot_S32x49x32_S32x49x32_S32x49x49_2_2_1_1_0_0.contr.Idx) :
    (dot_S32x49x32_S32x49x32_S32x49x49_2_2_1_1_0_0.rhsIdx i c 2).val = (c ⟨0, by decide⟩).val :=
  dot_S32x49x32_S32x49x32_S32x49x49_2_2_1_1_0_0.rhsIdx_val_of_single rfl i c

/-- Entry (w, n, m) of the batched product q · kᵀ is the inner product of row n of q and row m of k in window w. -/
theorem qk_apply (q k : FVec Ideal S32x49x32 .bf16) (w : Fin 32) (n m : Fin 49) :
    matmul dot_S32x49x32_S32x49x32_S32x49x49_2_2_1_1_0_0 none q k (constant (F := Ideal) S32x49x49 .f32 0x00000000#32) (ix3 w n m)
      = ∑ e : Fin 32, q (ix3 w n e) * k (ix3 w m e) := by
  simp only [matmul]
  rw [Ideal.matmul_constant_zero_apply,
    ← Equiv.sum_comp (contrEquiv1 dot_S32x49x32_S32x49x32_S32x49x49_2_2_1_1_0_0 32 rfl rfl).symm]
  refine Finset.sum_congr rfl fun e _ => ?_
  have he := contrEquiv1_symm_val dot_S32x49x32_S32x49x32_S32x49x49_2_2_1_1_0_0 32 rfl rfl e
  have el : dot_S32x49x32_S32x49x32_S32x49x49_2_2_1_1_0_0.lhsIdx (ix3 w n m)
      ((contrEquiv1 dot_S32x49x32_S32x49x32_S32x49x49_2_2_1_1_0_0 32 rfl rfl).symm e) = ix3 w n e :=
    funext fun a => Fin.ext (by
      match a with
      | ⟨0, _⟩ => exact qk_lhs_0 _ _
      | ⟨1, _⟩ => exact qk_lhs_1 _ _
      | ⟨2, _⟩ => exact (qk_lhs_2 _ _).trans he)
  have er : dot_S32x49x32_S32x49x32_S32x49x49_2_2_1_1_0_0.rhsIdx (ix3 w n m)
      ((contrEquiv1 dot_S32x49x32_S32x49x32_S32x49x49_2_2_1_1_0_0 32 rfl rfl).symm e) = ix3 w m e :=
    funext fun a => Fin.ext (by
      match a with
      | ⟨0, _⟩ => exact qk_rhs_0 _ _
      | ⟨1, _⟩ => exact qk_rhs_1 _ _
      | ⟨2, _⟩ => exact (qk_rhs_2 _ _).trans he)
  rw [el, er]

/-! ### The weighted values: the weights contracted on their key axis, the values on their token axis, batched over the windows -/

theorem pv_lhs_0 (i : S32x49x32.Idx) (c : dot_S32x49x49_S32x49x32_S32x49x32_2_1_1_2_0_0.contr.Idx) :
    (dot_S32x49x49_S32x49x32_S32x49x32_2_1_1_2_0_0.lhsIdx i c 0).val = (i 0).val := by
  unfold DotDims.lhsIdx
  rw [dif_pos (show (0 : Fin S32x49x49.rank) ∈ dot_S32x49x49_S32x49x32_S32x49x32_2_1_1_2_0_0.lhsBatch by decide)]
  rfl
theorem pv_lhs_1 (i : S32x49x32.Idx) (c : dot_S32x49x49_S32x49x32_S32x49x32_2_1_1_2_0_0.contr.Idx) :
    (dot_S32x49x49_S32x49x32_S32x49x32_2_1_1_2_0_0.lhsIdx i c 1).val = (i 1).val := by
  unfold DotDims.lhsIdx
  rw [dif_neg (show ¬(1 : Fin S32x49x49.rank) ∈ dot_S32x49x49_S32x49x32_S32x49x32_2_1_1_2_0_0.lhsBatch by decide),
    dif_pos (show (1 : Fin S32x49x49.rank) ∈ dot_S32x49x49_S32x49x32_S32x49x32_2_1_1_2_0_0.lhsNonContracting by decide)]
  rfl
theorem pv_lhs_2 (i : S32x49x32.Idx) (c : dot_S32x49x49_S32x49x32_S32x49x32_2_1_1_2_0_0.contr.Idx) :
    (dot_S32x49x49_S32x49x32_S32x49x32_2_1_1_2_0_0.lhsIdx i c 2).val = (c ⟨0, by decide⟩).val :=
  dot_S32x49x49_S32x49x32_S32x49x32_2_1_1_2_0_0.lhsIdx_val_of_single rfl i c
theorem pv_rhs_0 (i : S32x49x32.Idx) (c : dot_S32x49x49_S32x49x32_S32x49x32_2_1_1_2_0_0.contr.Idx) :
    (dot_S32x49x49_S32x49x32_S32x49x32_2_1_1_2_0_0.rhsIdx i c 0).val = (i 0).val := by
  unfold DotDims.rhsIdx
  rw [dif_pos (show (0 : Fin S32x49x32.rank) ∈ dot_S32x49x49_S32x49x32_S32x49x32_2_1_1_2_0_0.rhsBatch by decide)]
  rfl
theorem pv_rhs_1 (i : S32x49x32.Idx) (c : dot_S32x49x49_S32x49x32_S32x49x32_2_1_1_2_0_0.contr.Idx) :
    (dot_S32x49x49_S32x49x32_S32x49x32_2_1_1_2_0_0.rhsIdx i c 1).val = (c ⟨0, by decide⟩).val :=
  dot_S32x49x49_S32x49x32_S32x49x32_2_1_1_2_0_0.rhsIdx_val_of_single rfl i c
theorem pv_rhs_2 (i : S32x49x32.Idx) (c : dot_S32x49x49_S32x49x32_S32x49x32_2_1_1_2_0_0.contr.Idx) :
    (dot_S32x49x49_S32x49x32_S32x49x32_2_1_1_2_0_0.rhsIdx i c 2).val = (i 2).val := by
  unfold DotDims.rhsIdx
  rw [dif_neg (show ¬(2 : Fin S32x49x32.rank) ∈ dot_S32x49x49_S32x49x32_S32x49x32_2_1_1_2_0_0.rhsBatch by decide),
    dif_pos (show (2 : Fin S32x49x32.rank) ∈ dot_S32x49x49_S32x49x32_S32x49x32_2_1_1_2_0_0.rhsNonContracting by decide)]
  rfl

/-- Entry (w, n, d) of the batched product weights · v is the sum over key tokens m of weight (w, n, m) times value (w, m, d). -/
theorem pv_apply (p : FVec Ideal S32x49x49 .bf16) (v : FVec Ideal S32x49x32 .bf16) (w : Fin 32) (n : Fin 49) (d : Fin 32) :
    matmul dot_S32x49x49_S32x49x32_S32x49x32_2_1_1_2_0_0 none p v (constant (F := Ideal) S32x49x32 .f32 0x00000000#32) (ix3 w n d)
      = ∑ m : Fin 49, p (ix3 w n m) * v (ix3 w m d) := by
  simp only [matmul]
  rw [Ideal.matmul_constant_zero_apply,
    ← Equiv.sum_comp (contrEquiv1 dot_S32x49x49_S32x49x32_S32x49x32_2_1_1_2_0_0 49 rfl rfl).symm]
  refine Finset.sum_congr rfl fun m _ => ?_
  have hm := contrEquiv1_symm_val dot_S32x49x49_S32x49x32_S32x49x32_2_1_1_2_0_0 49 rfl rfl m
  have el : dot_S32x49x49_S32x49x32_S32x49x32_2_1_1_2_0_0.lhsIdx (ix3 w n d)
      ((contrEquiv1 dot_S32x49x49_S32x49x32_S32x49x32_2_1_1_2_0_0 49 rfl rfl).symm m) = ix3 w n m :=
    funext fun a => Fin.ext (by
      match a with
      | ⟨0, _⟩ => exact pv_lhs_0 _ _
      | ⟨1, _⟩ => exact pv_lhs_1 _ _
      | ⟨2, _⟩ => exact (pv_lhs_2 _ _).trans hm)
  have er : dot_S32x49x49_S32x49x32_S32x49x32_2_1_1_2_0_0.rhsIdx (ix3 w n d)
      ((contrEquiv1 dot_S32x49x49_S32x49x32_S32x49x32_2_1_1_2_0_0 49 rfl rfl).symm m) = ix3 w m d :=
    funext fun a => Fin.ext (by
      match a with
      | ⟨0, _⟩ => exact pv_rhs_0 _ _
      | ⟨1, _⟩ => exact (pv_rhs_1 _ _).trans hm
      | ⟨2, _⟩ => exact pv_rhs_2 _ _)
  rw [el, er]

/-! ### The bias slab: a unit axis dropped and put back, then repeated over the windows -/

/-- Entry (w, n, m) of the broadcast bias is the slab's entry (n, m), whatever the window. -/
theorem bias_apply (b1 : Vec Ideal S1x49x49 .f32) (w : Fin 32) (n m : Fin 49) :
    broadcastTo S32x49x49 (shapeCast S1x49x49 (shapeCast S49x49 b1 shapeCasts_S1x49x49_S49x49) shapeCasts_S49x49_S1x49x49)
        broadcasts_S1x49x49_S32x49x49 (ix3 w n m)
      = b1 (ix3 (0 : Fin 1) n m) := by
  rw [shapeCast_shapeCast]
  exact broadcastTo_apply b1 broadcasts_S1x49x49_S32x49x49 (ix3 w n m) (ix3 (0 : Fin 1) n m) (fun a => by
    match a with
    | ⟨0, _⟩ => rfl
    | ⟨1, _⟩ => rfl
    | ⟨2, _⟩ => rfl)

/-! ### A row's reduction kept as a unit axis and repeated along the row -/

/-- The keep-dims cast and the broadcast along the row: entry (w, n, m) of the result is the reduced value at (w, n). -/
theorem keep_apply (r : FVec Ideal S32x49 .f32) (w : Fin 32) (n m : Fin 49) :
    broadcastTo S32x49x49 (shapeCast S32x49x1 r shapeCasts_S32x49_S32x49x1) broadcasts_S32x49x1_S32x49x49 (ix3 w n m)
      = r (ix2 w n) := by
  refine (broadcastTo_apply _ broadcasts_S32x49x1_S32x49x49 (ix3 w n m) (ix3 w n (0 : Fin 1)) (fun a => by
    match a with
    | ⟨0, _⟩ => rfl
    | ⟨1, _⟩ => rfl
    | ⟨2, _⟩ => rfl)).trans ?_
  refine shapeCast_apply r shapeCasts_S32x49_S32x49x1 (ix3 w n (0 : Fin 1)) (ix2 w n) ?_
  rw [Shape.rowMajor_val_two, Shape.rowMajor_val_three]
  show w.val * 49 + n.val = (w.val * 49 + n.val) * 1 + 0
  omega

/-- The index the reduction over the last axis reads at row (w, n), coordinate m, is (w, n, m). -/
theorem lift_eq (w : Fin 32) (n m : Fin 49) :
    reduces_S32x49x49_S32x49.lift (ix2 w n) m = ix3 w n m :=
  funext fun a => Fin.ext (by
    match a with
    | ⟨0, _⟩ => rfl
    | ⟨1, _⟩ => rfl
    | ⟨2, _⟩ => rfl)

/-- The largest score of row (w, n), repeated along the row. -/
theorem rowmax_apply (sc : FVec Ideal S32x49x49 .f32) (w : Fin 32) (n m : Fin 49) :
    broadcastTo S32x49x49
        (shapeCast S32x49x1
          (multiReduction (F := Ideal) .maximumf [2] S32x49 sc 0xFF800000#32 reduces_S32x49x49_S32x49 (.inl rfl) rfl)
          shapeCasts_S32x49_S32x49x1)
        broadcasts_S32x49x1_S32x49x49 (ix3 w n m)
      = rowMax (fun m' => sc (ix3 w n m')) := by
  rw [keep_apply]
  refine (Ideal.multiReduction_maximumf_single sc _ reduces_S32x49x49_S32x49 _ _ (ix2 w n)).trans ?_
  unfold rowMax
  refine congrArg (fun f => (Finset.univ : Finset (Fin 49)).fold max (Ideal.ofBits .f32 0xFF800000#32) f) ?_
  funext m'
  exact congrArg sc (lift_eq w n m')

/-- The sum of row (w, n), repeated along the row. -/
theorem rowsum_apply (ex : FVec Ideal S32x49x49 .f32) (w : Fin 32) (n m : Fin 49) :
    broadcastTo S32x49x49
        (shapeCast S32x49x1
          (multiReduction (F := Ideal) .add [2] S32x49 ex 0x00000000#32 reduces_S32x49x49_S32x49 (.inl rfl) rfl)
          shapeCasts_S32x49_S32x49x1)
        broadcasts_S32x49x1_S32x49x49 (ix3 w n m)
      = ∑ m' : Fin 49, ex (ix3 w n m') := by
  rw [keep_apply]
  refine (Ideal.multiReduction_add_single ex _ reduces_S32x49x49_S32x49 _ _ (ix2 w n)).trans ?_
  refine Finset.sum_congr rfl fun m' _ => ?_
  exact congrArg ex (lift_eq w n m')

/-! ### The softmax along a row, and the head -/

/-- The quotient of the shifted exponentials by their row sum, at (w, n, m), is the softmax weight of entry m of row
    (w, n) of the scores. -/
theorem softmax_apply (sc : FVec Ideal S32x49x49 .f32) (w : Fin 32) (n m : Fin 49) :
    divf
        (exp (subf sc
          (broadcastTo S32x49x49
            (shapeCast S32x49x1
              (multiReduction (F := Ideal) .maximumf [2] S32x49 sc 0xFF800000#32 reduces_S32x49x49_S32x49 (.inl rfl) rfl)
              shapeCasts_S32x49_S32x49x1)
            broadcasts_S32x49x1_S32x49x49)))
        (broadcastTo S32x49x49
          (shapeCast S32x49x1
            (multiReduction (F := Ideal) .add [2] S32x49
              (exp (subf sc
                (broadcastTo S32x49x49
                  (shapeCast S32x49x1
                    (multiReduction (F := Ideal) .maximumf [2] S32x49 sc 0xFF800000#32 reduces_S32x49x49_S32x49 (.inl rfl) rfl)
                    shapeCasts_S32x49_S32x49x1)
                  broadcasts_S32x49x1_S32x49x49)))
              0x00000000#32 reduces_S32x49x49_S32x49 (.inl rfl) rfl)
            shapeCasts_S32x49_S32x49x1)
          broadcasts_S32x49x1_S32x49x49)
        (ix3 w n m)
      = rowSoftmax (fun m' => sc (ix3 w n m')) m := by
  have hex : ∀ m' : Fin 49,
      exp (subf sc
          (broadcastTo S32x49x49
            (shapeCast S32x49x1
              (multiReduction (F := Ideal) .maximumf [2] S32x49 sc 0xFF800000#32 reduces_S32x49x49_S32x49 (.inl rfl) rfl)
              shapeCasts_S32x49_S32x49x1)
            broadcasts_S32x49x1_S32x49x49)) (ix3 w n m')
        = rowExp (fun m' => sc (ix3 w n m')) m' := fun m' =>
    congrArg (fun t => Ideal.exp (sc (ix3 w n m') - t)) (rowmax_apply sc w n m')
  refine (divf_apply _ _ _).trans ?_
  rw [rowsum_apply, hex m]
  unfold rowSoftmax
  exact congrArg (Ideal.div (rowExp (fun m' => sc (ix3 w n m')) m)) (Finset.sum_congr rfl fun m' _ => hex m')

/-- The head at window `w`, token `n`, channel `d` is the textbook head output of that window's rows. -/
theorem headChain_apply (q k v : FVec Ideal S32x49x32 .bf16) (b1 : Vec Ideal S1x49x49 .f32) (w : Fin 32) (n : Fin 49) (d : Fin 32) :
    headChain q k v b1 (ix3 w n d)
      = headOut (fun n' e => q (ix3 w n' e)) (fun n' e => k (ix3 w n' e)) (fun n' e => v (ix3 w n' e))
          (fun a b => b1 (ix3 (0 : Fin 1) a b)) n d := by
  unfold headChain headOut
  -- the outer narrowing is the identity; the last product reads as the sum over the key tokens
  refine (pv_apply _ v w n d).trans ?_
  refine Finset.sum_congr rfl fun m _ => ?_
  refine congrArg (· * v (ix3 w m d)) ?_
  -- the weights: the inner narrowing is the identity, then the softmax of the row of scores
  refine (softmax_apply _ w n m).trans ?_
  refine congrArg (fun a => rowSoftmax a m) ?_
  funext m'
  -- a score: the channel inner product plus the bias
  refine (addf_apply _ _ _).trans ?_
  rw [qk_apply, bias_apply]
  rfl

end Cert.KernelIdeal.HeadValue

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelBlock.lean ====
/-
  What the kernel body leaves in its output block, read at an entry.

  A grid point holds 32 windows: 1568 rows of 384 channels. The body projects the rows to 1152 columns (one plain
  matrix product plus a bias row), regroups them as 32 windows of 49 tokens, runs the 12 heads on their 32-channel
  slices, lays the heads' outputs side by side, regroups to 1568 rows, and projects once more. So row `49·w + n` of the
  block is window `w`'s output at token `n`, and it depends only on that window's 49 rows.
-/
import proofs.«419807_j43267500540185_3_alg».proof.Proof.Gen.KernelIdeal.Frame
import proofs.«419807_j43267500540185_3_alg».proof.Proof.KernelHead
import proofs.«419807_j43267500540185_3_alg».proof.Proof.LibPlainProduct

noncomputable section

open scoped BigOperators

namespace Cert.KernelIdeal.BlockValue

open Cert.KernelIdeal Cert.KernelIdeal.Gen Idealize.ShloMosaic Idealize.ShloMosaic.ValueIdx Cert.WindowAttention
open Cert.KernelIdeal.HeadValue Cert.Lib.PlainProduct

/-- The block's row that holds token `n` of the block's window `w`. -/
def blockRow (w : Fin 32) (n : Fin 49) : Fin 1568 := ⟨49 * w.val + n.val, by have := w.isLt; have := n.isLt; omega⟩

/-! ## The two projections -/

/-- Both projections are plain products: rows by the contraction axis, the contraction axis by columns. -/
theorem plain_fused : IsPlain dot_S1568x384_S384x1152_S1568x1152_1_0_0_1_n_n := ⟨rfl, rfl, rfl, rfl, rfl, rfl⟩
theorem plain_out : IsPlain dot_S1568x384_S384x384_S1568x384_1_0_0_1_n_n := ⟨rfl, rfl, rfl, rfl, rfl, rfl⟩

/-- A bias row broadcast over the rows, read at an entry: the row's entry at that column. -/
theorem rowBias_apply {R C : Nat} (x : (⟨1, ![C]⟩ : Shape).Idx → EReal) (h1 : (⟨1, ![C]⟩ : Shape).ShapeCasts ⟨2, ![1, C]⟩)
    (h2 : (⟨2, ![1, C]⟩ : Shape).Broadcasts ⟨2, ![R, C]⟩) (r : Fin R) (j : Fin C) :
    broadcastTo ⟨2, ![R, C]⟩ (shapeCast ⟨2, ![1, C]⟩ x h1) h2 (ix2 r j) = x (ix1 j) := by
  refine (broadcastTo_apply _ _ (ix2 r j) (ix2 (0 : Fin 1) j) ?_).trans ?_
  · intro a
    match a with
    | ⟨0, _⟩ => rfl
    | ⟨1, _⟩ =>
      show j.val = if C = 1 then 0 else j.val
      split
      · have := j.isLt; omega
      · rfl
  · exact shapeCast_apply _ _ (ix2 (0 : Fin 1) j) (ix1 j) (by
      rw [Shape.rowMajor_val_one, Shape.rowMajor_val_two]
      show j.val = (0 : ℕ) * C + j.val
      omega)

/-- The fused projection, regrouped by windows: window `w`, token `n`, column `j` is row `49·w + n` of the block against
    column `j` of the weight, plus the bias's entry `j`. -/
theorem fused_apply (x0 : Vec Ideal S1568x384 .f32) (x1 : Vec Ideal S384x1152 .bf16) (x2 : Vec Ideal S1152 .f32)
    (w : Fin 32) (n : Fin 49) (j : Fin 1152) :
    k0_pay2 x0 x1 x2 (ix3 w n j) = (∑ c : Fin 384, x0 (ix2 (blockRow w n) c) * x1 (ix2 c j)) + x2 (ix1 j) := by
  unfold k0_pay2
  refine (shapeCast_apply _ _ (ix3 w n j) (ix2 (blockRow w n) j) ?_).trans ?_
  · rw [Shape.rowMajor_val_two, Shape.rowMajor_val_three]
    show (49 * w.val + n.val) * 1152 + j.val = (w.val * 49 + n.val) * 1152 + j.val
    omega
  · rw [truncf_apply, addf_apply, shapeCast_self, shapeCast_self, shapeCast_self]
    refine congrArg₂ (· + ·) ?_ ?_
    · simp only [matmul]
      rw [matmul_zero_apply plain_fused]
      rfl
    · exact rowBias_apply _ _ _ _ _

/-- The output projection at row `r`, channel `o`: the row of heads' outputs against column `o` of the weight, plus the
    bias's entry `o`. -/
theorem outProj_apply (a : FVec Ideal S1568x384 .bf16) (x3 : Vec Ideal S384x384 .bf16) (x4 : Vec Ideal S384 .f32)
    (r : Fin 1568) (o : Fin 384) :
    k0_pay1 a x3 x4 (ix2 r o) = (∑ c : Fin 384, a (ix2 r c) * x3 (ix2 c o)) + x4 (ix1 o) := by
  unfold k0_pay1
  rw [addf_apply, shapeCast_self]
  refine congrArg₂ (· + ·) ?_ ?_
  · simp only [matmul]
    rw [matmul_zero_apply plain_out]
  · exact rowBias_apply _ _ _ _ _

/-! ## The bias slabs -/

/-- Head `h`'s slab of the position biases, loaded as a `[1, 49, 49]` piece at offset `(h, 0, 0)`, read at `(0, a, b)`. -/
theorem slab_apply (x5 : Vec Ideal S12x49x49 .f32) (off : Fin 3 → Nat) (inb : ∀ a, off a + S1x49x49.size a ≤ S12x49x49.size a)
    (h : Fin 12) (e0 : off 0 = h.val) (e1 : off 1 = 0) (e2 : off 2 = 0) (a b : Fin 49) :
    View.ld x5 (Rect.unit (s := S12x49x49) off S1x49x49.size inb) (ix3 (0 : Fin 1) a b) = x5 (ix3 h a b) := by
  show x5 _ = x5 _
  refine congrArg x5 (funext fun d => Fin.ext ?_)
  match d with
  | ⟨0, _⟩ => show off 0 + 1 * 0 = h.val; omega
  | ⟨1, _⟩ => show off 1 + 1 * a.val = a.val; omega
  | ⟨2, _⟩ => show off 2 + 1 * b.val = b.val; omega

/-! ## The twelve heads -/

variable {F : FTy → Type} [FloatOps F]

/-- Head `h` of the block: its query, key and value slices of the regrouped projection (columns `32·h`, `384 + 32·h`,
    `768 + 32·h`, 32 wide) and its slab of the biases. -/
def heads (Q : FVec F S32x49x1152 .bf16) (x5 : Vec F S12x49x49 .f32) : Fin 12 → FVec F S32x49x32 .bf16
  | ⟨0, _⟩ => headChain (extractStridedSlice S32x49x32 ![0, 0, 0] Q slices_S32x49x1152_o0_0_0_S32x49x32)
      (extractStridedSlice S32x49x32 ![0, 0, 384] Q slices_S32x49x1152_o0_0_384_S32x49x32)
      (extractStridedSlice S32x49x32 ![0, 0, 768] Q slices_S32x49x1152_o0_0_768_S32x49x32) (View.ld x5 r0_3)
  | ⟨1, _⟩ => headChain (extractStridedSlice S32x49x32 ![0, 0, 32] Q slices_S32x49x1152_o0_0_32_S32x49x32)
      (extractStridedSlice S32x49x32 ![0, 0, 416] Q slices_S32x49x1152_o0_0_416_S32x49x32)
      (extractStridedSlice S32x49x32 ![0, 0, 800] Q slices_S32x49x1152_o0_0_800_S32x49x32) (View.ld x5 r0_4)
  | ⟨2, _⟩ => headChain (extractStridedSlice S32x49x32 ![0, 0, 64] Q slices_S32x49x1152_o0_0_64_S32x49x32)
      (extractStridedSlice S32x49x32 ![0, 0, 448] Q slices_S32x49x1152_o0_0_448_S32x49x32)
      (extractStridedSlice S32x49x32 ![0, 0, 832] Q slices_S32x49x1152_o0_0_832_S32x49x32) (View.ld x5 r0_5)
  | ⟨3, _⟩ => headChain (extractStridedSlice S32x49x32 ![0, 0, 96] Q slices_S32x49x1152_o0_0_96_S32x49x32)
      (extractStridedSlice S32x49x32 ![0, 0, 480] Q slices_S32x49x1152_o0_0_480_S32x49x32)
      (extractStridedSlice S32x49x32 ![0, 0, 864] Q slices_S32x49x1152_o0_0_864_S32x49x32) (View.ld x5 r0_6)
  | ⟨4, _⟩ => headChain (extractStridedSlice S32x49x32 ![0, 0, 128] Q slices_S32x49x1152_o0_0_128_S32x49x32)
      (extractStridedSlice S32x49x32 ![0, 0, 512] Q slices_S32x49x1152_o0_0_512_S32x49x32)
      (extractStridedSlice S32x49x32 ![0, 0, 896] Q slices_S32x49x1152_o0_0_896_S32x49x32) (View.ld x5 r0_7)
  | ⟨5, _⟩ => headChain (extractStridedSlice S32x49x32 ![0, 0, 160] Q slices_S32x49x1152_o0_0_160_S32x49x32)
      (extractStridedSlice S32x49x32 ![0, 0, 544] Q slices_S32x49x1152_o0_0_544_S32x49x32)
      (extractStridedSlice S32x49x32 ![0, 0, 928] Q slices_S32x49x1152_o0_0_928_S32x49x32) (View.ld x5 r0_8)
  | ⟨6, _⟩ => headChain (extractStridedSlice S32x49x32 ![0, 0, 192] Q slices_S32x49x1152_o0_0_192_S32x49x32)
      (extractStridedSlice S32x49x32 ![0, 0, 576] Q slices_S32x49x1152_o0_0_576_S32x49x32)
      (extractStridedSlice S32x49x32 ![0, 0, 960] Q slices_S32x49x1152_o0_0_960_S32x49x32) (View.ld x5 r0_9)
  | ⟨7, _⟩ => headChain (extractStridedSlice S32x49x32 ![0, 0, 224] Q slices_S32x49x1152_o0_0_224_S32x49x32)
      (extractStridedSlice S32x49x32 ![0, 0, 608] Q slices_S32x49x1152_o0_0_608_S32x49x32)
      (extractStridedSlice S32x49x32 ![0, 0, 992] Q slices_S32x49x1152_o0_0_992_S32x49x32) (View.ld x5 r0_10)
  | ⟨8, _⟩ => headChain (extractStridedSlice S32x49x32 ![0, 0, 256] Q slices_S32x49x1152_o0_0_256_S32x49x32)
      (extractStridedSlice S32x49x32 ![0, 0, 640] Q slices_S32x49x1152_o0_0_640_S32x49x32)
      (extractStridedSlice S32x49x32 ![0, 0, 1024] Q slices_S32x49x1152_o0_0_1024_S32x49x32) (View.ld x5 r0_11)
  | ⟨9, _⟩ => headChain (extractStridedSlice S32x49x32 ![0, 0, 288] Q slices_S32x49x1152_o0_0_288_S32x49x32)
      (extractStridedSlice S32x49x32 ![0, 0, 672] Q slices_S32x49x1152_o0_0_672_S32x49x32)
      (extractStridedSlice S32x49x32 ![0, 0, 1056] Q slices_S32x49x1152_o0_0_1056_S32x49x32) (View.ld x5 r0_12)
  | ⟨10, _⟩ => headChain (extractStridedSlice S32x49x32 ![0, 0, 320] Q slices_S32x49x1152_o0_0_320_S32x49x32)
      (extractStridedSlice S32x49x32 ![0, 0, 704] Q slices_S32x49x1152_o0_0_704_S32x49x32)
      (extractStridedSlice S32x49x32 ![0, 0, 1088] Q slices_S32x49x1152_o0_0_1088_S32x49x32) (View.ld x5 r0_13)
  | ⟨11, _⟩ => headChain (extractStridedSlice S32x49x32 ![0, 0, 352] Q slices_S32x49x1152_o0_0_352_S32x49x32)
      (extractStridedSlice S32x49x32 ![0, 0, 736] Q slices_S32x49x1152_o0_0_736_S32x49x32)
      (extractStridedSlice S32x49x32 ![0, 0, 1120] Q slices_S32x49x1152_o0_0_1120_S32x49x32) (View.ld x5 r0_14)
  | ⟨k + 12, hk⟩ => absurd hk (by omega)

/-- The body's result block as the output projection of the twelve heads side by side. -/
theorem out0_6_eq (x0 : Vec F S1568x384 .f32) (x1 : Vec F S384x1152 .bf16) (x2 : Vec F S1152 .f32)
    (x3 : Vec F S384x384 .bf16) (x4 : Vec F S384 .f32) (x5 : Vec F S12x49x49 .f32) :
    out0_6 x0 x1 x2 x3 x4 x5
      = k0_pay1 (shapeCast S1568x384
          (concatenate S32x49x384 2 (List.ofFn fun h : Fin 12 => (⟨S32x49x32, heads (k0_pay2 x0 x1 x2) x5 h⟩ : (s : Shape) × (s.Idx → F .bf16)))
            concatenates_S32x49x32_S32x49x32_S32x49x32_S32x49x32_S32x49x32_S32x49x32_S32x49x32_S32x49x32_S32x49x32_S32x49x32_S32x49x32_S32x49x32_S32x49x384_d2)
          shapeCasts_S32x49x384_S1568x384) x3 x4 := by
  have hz1 : (![0] : Fin 1 → Nat) = fun _ => 0 := funext fun a => by match a with | ⟨0, _⟩ => rfl
  have hz2 : (![0, 0] : Fin 2 → Nat) = fun _ => 0 := funext fun a => by match a with | ⟨0, _⟩ => rfl | ⟨1, _⟩ => rfl
  unfold out0_6
  rw [View.canon_unit_zero hz2]
  simp only [View.ld_unit_zero (S := S1568x384) hz2, View.ld_unit_zero (S := S384x1152) hz2, View.ld_unit_zero (S := S1152) hz1,
    View.ld_unit_zero (S := S384x384) hz2, View.ld_unit_zero (S := S384) hz1]
  rfl

/-! ## One head against the specification -/

/-- A 32-wide slice of the regrouped projection starting at column `off`: entry `e` is column `off + e`. -/
theorem slice_apply (Q : FVec Ideal S32x49x1152 .bf16) (off : Nat) (hs : S32x49x1152.Slices ![0, 0, off] S32x49x32)
    (w : Fin 32) (n : Fin 49) (e : Fin 32) (j : Fin 1152) (hj : j.val = off + e.val) :
    extractStridedSlice S32x49x32 ![0, 0, off] Q hs (ix3 w n e) = Q (ix3 w n j) :=
  extractStridedSlice_apply _ Q hs (ix3 w n e) (ix3 w n j) (fun a => by
    match a with
    | ⟨0, _⟩ => show w.val = 0 + w.val; omega
    | ⟨1, _⟩ => show n.val = 0 + n.val; omega
    | ⟨2, _⟩ => show j.val = off + e.val; exact hj)

/-- A head run on the slices at columns `32·h`, `384 + 32·h`, `768 + 32·h` and on head `h`'s slab is head `h` of window
    `w`'s output, as the specification has it. -/
theorem head_read (Q : FVec Ideal S32x49x1152 .bf16) (x5 : Vec Ideal S12x49x49 .f32) (oq ok ov : Nat)
    (hq : S32x49x1152.Slices ![0, 0, oq] S32x49x32) (hk : S32x49x1152.Slices ![0, 0, ok] S32x49x32)
    (hv : S32x49x1152.Slices ![0, 0, ov] S32x49x32) (b1 : Vec Ideal S1x49x49 .f32)
    (h : Fin 12) (eq : oq = 32 * h.val) (ek : ok = 384 + 32 * h.val) (ev : ov = 768 + 32 * h.val)
    (hb : ∀ a b, b1 (ix3 (0 : Fin 1) a b) = x5 (ix3 h a b)) (w : Fin 32) (n : Fin 49) (d : Fin 32) :
    headChain (extractStridedSlice S32x49x32 ![0, 0, oq] Q hq) (extractStridedSlice S32x49x32 ![0, 0, ok] Q hk)
        (extractStridedSlice S32x49x32 ![0, 0, ov] Q hv) b1 (ix3 w n d)
      = winHead (fun n' j => Q (ix3 w n' j)) (fun h a b => x5 (ix3 h a b)) h n d := by
  have e1 : (fun (n' : Fin 49) (e : Fin 32) => extractStridedSlice S32x49x32 ![0, 0, oq] Q hq (ix3 w n' e))
      = fun n' e => Q (ix3 w n' (qCol h e)) :=
    funext fun n' => funext fun e => slice_apply Q oq hq w n' e (qCol h e) (by show 32 * h.val + e.val = oq + e.val; omega)
  have e2 : (fun (n' : Fin 49) (e : Fin 32) => extractStridedSlice S32x49x32 ![0, 0, ok] Q hk (ix3 w n' e))
      = fun n' e => Q (ix3 w n' (kCol h e)) :=
    funext fun n' => funext fun e => slice_apply Q ok hk w n' e (kCol h e) (by show 384 + (32 * h.val + e.val) = ok + e.val; omega)
  have e3 : (fun (n' : Fin 49) (e : Fin 32) => extractStridedSlice S32x49x32 ![0, 0, ov] Q hv (ix3 w n' e))
      = fun n' e => Q (ix3 w n' (vCol h e)) :=
    funext fun n' => funext fun e => slice_apply Q ov hv w n' e (vCol h e) (by show 768 + (32 * h.val + e.val) = ov + e.val; omega)
  have e4 : (fun (a b : Fin 49) => b1 (ix3 (0 : Fin 1) a b)) = fun a b => x5 (ix3 h a b) :=
    funext fun a => funext fun b => hb a b
  rw [headChain_apply, e1, e2, e3, e4]
  rfl

/-- Each of the twelve heads of the block is its head of window `w`'s output. -/
theorem heads_apply (Q : FVec Ideal S32x49x1152 .bf16) (x5 : Vec Ideal S12x49x49 .f32) (h : Fin 12)
    (w : Fin 32) (n : Fin 49) (d : Fin 32) :
    heads Q x5 h (ix3 w n d) = winHead (fun n' j => Q (ix3 w n' j)) (fun h a b => x5 (ix3 h a b)) h n d := by
  match h with
  | ⟨0, _⟩ => exact head_read Q x5 0 384 768 _ _ _ _ ⟨0, by omega⟩ rfl rfl rfl (fun a b => slab_apply x5 _ _ ⟨0, by omega⟩ rfl rfl rfl a b) w n d
  | ⟨1, _⟩ => exact head_read Q x5 32 416 800 _ _ _ _ ⟨1, by omega⟩ rfl rfl rfl (fun a b => slab_apply x5 _ _ ⟨1, by omega⟩ rfl rfl rfl a b) w n d
  | ⟨2, _⟩ => exact head_read Q x5 64 448 832 _ _ _ _ ⟨2, by omega⟩ rfl rfl rfl (fun a b => slab_apply x5 _ _ ⟨2, by omega⟩ rfl rfl rfl a b) w n d
  | ⟨3, _⟩ => exact head_read Q x5 96 480 864 _ _ _ _ ⟨3, by omega⟩ rfl rfl rfl (fun a b => slab_apply x5 _ _ ⟨3, by omega⟩ rfl rfl rfl a b) w n d
  | ⟨4, _⟩ => exact head_read Q x5 128 512 896 _ _ _ _ ⟨4, by omega⟩ rfl rfl rfl (fun a b => slab_apply x5 _ _ ⟨4, by omega⟩ rfl rfl rfl a b) w n d
  | ⟨5, _⟩ => exact head_read Q x5 160 544 928 _ _ _ _ ⟨5, by omega⟩ rfl rfl rfl (fun a b => slab_apply x5 _ _ ⟨5, by omega⟩ rfl rfl rfl a b) w n d
  | ⟨6, _⟩ => exact head_read Q x5 192 576 960 _ _ _ _ ⟨6, by omega⟩ rfl rfl rfl (fun a b => slab_apply x5 _ _ ⟨6, by omega⟩ rfl rfl rfl a b) w n d
  | ⟨7, _⟩ => exact head_read Q x5 224 608 992 _ _ _ _ ⟨7, by omega⟩ rfl rfl rfl (fun a b => slab_apply x5 _ _ ⟨7, by omega⟩ rfl rfl rfl a b) w n d
  | ⟨8, _⟩ => exact head_read Q x5 256 640 1024 _ _ _ _ ⟨8, by omega⟩ rfl rfl rfl (fun a b => slab_apply x5 _ _ ⟨8, by omega⟩ rfl rfl rfl a b) w n d
  | ⟨9, _⟩ => exact head_read Q x5 288 672 1056 _ _ _ _ ⟨9, by omega⟩ rfl rfl rfl (fun a b => slab_apply x5 _ _ ⟨9, by omega⟩ rfl rfl rfl a b) w n d
  | ⟨10, _⟩ => exact head_read Q x5 320 704 1088 _ _ _ _ ⟨10, by omega⟩ rfl rfl rfl (fun a b => slab_apply x5 _ _ ⟨10, by omega⟩ rfl rfl rfl a b) w n d
  | ⟨11, _⟩ => exact head_read Q x5 352 736 1120 _ _ _ _ ⟨11, by omega⟩ rfl rfl rfl (fun a b => slab_apply x5 _ _ ⟨11, by omega⟩ rfl rfl rfl a b) w n d
  | ⟨k + 12, hk⟩ => exact absurd hk (by omega)

/-! ## The block -/

/-- Entry `(49·w + n, o)` of the output block is window `w`'s output at token `n`, channel `o`, from the block's rows of
    that window projected by `x1` (the fused weight, one column per output) and `x2` (its bias), the bias slabs `x5`, and the
    output projection `x3` (one column per output channel) with its bias `x4`. -/
theorem out_block_apply (x0 : Vec Ideal S1568x384 .f32) (x1 : Vec Ideal S384x1152 .bf16) (x2 : Vec Ideal S1152 .f32)
    (x3 : Vec Ideal S384x384 .bf16) (x4 : Vec Ideal S384 .f32) (x5 : Vec Ideal S12x49x49 .f32)
    (w : Fin 32) (n : Fin 49) (o : Fin 384) :
    out0_6 x0 x1 x2 x3 x4 x5 (ix2 (blockRow w n) o)
      = winOut (fun n' j => (∑ c : Fin 384, x0 (ix2 (blockRow w n') c) * x1 (ix2 c j)) + x2 (ix1 j))
          (fun h a b => x5 (ix3 h a b)) (fun o' c => x3 (ix2 c o')) (fun o' => x4 (ix1 o')) n o := by
  have hq : (fun (n' : Fin 49) (j : Fin 1152) => k0_pay2 x0 x1 x2 (ix3 w n' j))
      = fun n' j => (∑ c : Fin 384, x0 (ix2 (blockRow w n') c) * x1 (ix2 c j)) + x2 (ix1 j) :=
    funext fun n' => funext fun j => fused_apply x0 x1 x2 w n' j
  rw [out0_6_eq, outProj_apply]
  unfold winOut
  refine congrArg₂ (· + ·) (Finset.sum_congr rfl fun c _ => congrArg₂ (· * ·) ?_ rfl) rfl
  refine (shapeCast_apply _ _ (ix2 (blockRow w n) c) (ix3 w n c) ?_).trans ?_
  · rw [Shape.rowMajor_val_two, Shape.rowMajor_val_three]
    show (w.val * 49 + n.val) * 384 + c.val = (49 * w.val + n.val) * 384 + c.val
    omega
  · refine (concatenate_ofFn_apply (t := S32x49x384) (s₁ := S32x49x32) (2 : Fin 3) (fun h : Fin 12 => heads (k0_pay2 x0 x1 x2) x5 h) _ rfl 32 rfl
      (ix3 w n c) (headOf c) rfl (ix3 w n (chanOf c)) rfl ?_).trans ?_
    · intro b hb
      match b with
      | ⟨0, _⟩ => rfl
      | ⟨1, _⟩ => rfl
      | ⟨2, _⟩ => exact absurd rfl hb
    · rw [heads_apply, hq]

end Cert.KernelIdeal.BlockValue

end
-- ==== Proof.KernelArray.lean ====
/-
  The kernel program's run, with its result named.

  Before the region the host prepares the staged arrays: the input regrouped to 200704 rows of 384 channels; the fused
  weight with the queries' scale folded into its first 384 rows (and `1` into the rest), transposed; the fused bias
  with the same factors; the output projection transposed; the position biases gathered from their table and laid out
  head first. The grid's 128 points each write 1568 rows — 32 windows — of the region's output, which the host then
  regroups to 4096 windows of 49 tokens. Point `t` covers windows `32·t … 32·t + 31`, so every entry of the result is
  written once, and it is its window's output.
-/
import proofs.«419807_j43267500540185_3_alg».proof.Proof.Gen.KernelIdeal.Frame
import proofs.«419807_j43267500540185_3_alg».proof.Proof.KernelBlock
import Idealize.ShloMosaic.Lib.StableHlo.Run
import Idealize.ShloMosaic.Lib.Pipeline.Value

set_option maxRecDepth 16384

noncomputable section

open scoped BigOperators

namespace Cert.KernelIdeal.ArrayValue

open Cert.KernelIdeal Cert.KernelIdeal.Gen Idealize.ShloMosaic Idealize.ShloMosaic.TcCoe Idealize.ShloMosaic.ValueIdx
open Idealize.SL.Sem Cert.WindowAttention
open Cert.KernelIdeal.BlockValue

/-- The position biases as the host lays them out before the region: negative indices wrapped by the table's 169 rows,
    the rows gathered, regrouped to 49 × 49 × 12 and the head axis brought first. -/
def biasTerm {F : FTy → Type} [FloatOps F] (x5 : (⟨S169x12, .f32⟩ : BufTy).Contents (Elt F))
    (x6 : (⟨S49x49, .i32⟩ : BufTy).Contents (Elt F)) : (⟨S12x49x49, .f32⟩ : BufTy).Contents (Elt F) :=
  transpose S12x49x49 [2, 0, 1]
    (shapeCast _
      (Host.gather gather_S169x12_S2401x1_S2401x12_1_0_n_n_0_1_112 x5
        (broadcastInDim S2401x1 ![0] bcast_S2401_S2401x1_0
          (select (cmpi .slt (shapeCast _ x6 shapeCasts_S49x49_S2401) (broadcastInDim S2401 ![] bcast_S_S2401 (constantI S_ 32 0#32)))
            (addi (shapeCast _ x6 shapeCasts_S49x49_S2401) (broadcastInDim S2401 ![] bcast_S_S2401 (constantI S_ 32 169#32)))
            (shapeCast _ x6 shapeCasts_S49x49_S2401))))
      shapeCasts_S2401x12_S49x49x12)
    transposes_S49x49x12_S12x49x49_2_0_1

variable (m : (ℓ : Loc nD τ sig) → Buf (Elt Ideal) ℓ) (ρ : Dev nD → PrngReg)

/-- The program's result on core `c`: every window's output, the fused projection with the scale folded in. -/
def result (c : Dev nD) : Buf (Elt Ideal) ((c.tc : Thread nD τ).loc main_v23) :=
  attnOut
    (qkvFolded (fun w n k => m ((c.tc : Thread nD τ).loc main_arg0) (ix3 w n k))
      (fun j k => m ((c.tc : Thread nD τ).loc main_arg1) (ix2 j k))
      (fun j => m ((c.tc : Thread nD τ).loc main_arg2) (ix1 j))
      (foldFactor (Ideal.ofBits .f32 0x3E3504F3#32) (Ideal.ofBits .f32 0x3F800000#32)))
    (fun h a b => biasTerm (F := Ideal) (m ((c.tc : Thread nD τ).loc main_arg5)) (m ((c.tc : Thread nD τ).loc main_arg6)) (ix3 h a b))
    (fun o k => m ((c.tc : Thread nD τ).loc main_arg3) (ix2 o k))
    (fun o => m ((c.tc : Thread nD τ).loc main_arg4) (ix1 o))

/-! ## Rows, windows and tokens -/

/-- The row of the regrouped array that holds token `n` of window `w`. -/
def arrRow (w : Fin 4096) (n : Fin 49) : Fin 200704 := ⟨49 * w.val + n.val, by have := w.isLt; have := n.isLt; omega⟩
/-- The window a row of the regrouped array belongs to, -/
def rowWin (R : Fin 200704) : Fin 4096 := ⟨R.val / 49, by have := R.isLt; omega⟩
/-- and its token inside that window. -/
def rowTok (R : Fin 200704) : Fin 49 := ⟨R.val % 49, Nat.mod_lt _ (by decide)⟩

theorem arrRow_val (w : Fin 4096) (n : Fin 49) : (arrRow w n).val = 49 * w.val + n.val := rfl
theorem rowWin_val (R : Fin 200704) : (rowWin R).val = R.val / 49 := rfl
theorem rowTok_val (R : Fin 200704) : (rowTok R).val = R.val % 49 := rfl
theorem blockRow_val (w : Fin 32) (n : Fin 49) : (blockRow w n).val = 49 * w.val + n.val := rfl

/-- Every row of a block is some window's token. -/
theorem exists_blockRow (r : Fin 1568) : ∃ (w : Fin 32) (n : Fin 49), r = blockRow w n := by
  have hr := r.isLt
  exact ⟨⟨r.val / 49, by omega⟩, ⟨r.val % 49, Nat.mod_lt _ (by decide)⟩, Fin.ext (by rw [blockRow_val]; show r.val = 49 * (r.val / 49) + r.val % 49; omega)⟩

/-! ## The region's output as one function of the staged arrays -/

/-- The region's output array from the arrays it is launched on: row `R` is token `R % 49` of window `R / 49`, and that
    window's output is computed from its 49 rows of `X` projected by `x1` and `x2`. -/
def stagedOut (X : Vec Ideal S200704x384 .f32) (x1 : Vec Ideal S384x1152 .bf16) (x2 : Vec Ideal S1152 .f32)
    (x3 : Vec Ideal S384x384 .bf16) (x4 : Vec Ideal S384 .f32) (x5 : Vec Ideal S12x49x49 .f32) : Vec Ideal S200704x384 .f32 :=
  fun i => winOut (fun n' j => (∑ k : Fin 384, X (ix2 (arrRow (rowWin (i 0)) n') k) * x1 (ix2 k j)) + x2 (ix1 j))
    (fun h a b => x5 (ix3 h a b)) (fun o' k => x3 (ix2 k o')) (fun o' => x4 (ix1 o')) (rowTok (i 0)) (i 1)

/-- An entry of a point's output block is the entry of `stagedOut` it lands on: the block at point `tv` holds rows
    `1568·tv …` of the array, 32 whole windows, and a window's output reads only that window's rows. -/
theorem block_entry (X : Vec Ideal S200704x384 .f32) (x0 : Vec Ideal S1568x384 .f32) (x1 A1 : Vec Ideal S384x1152 .bf16)
    (x2 A2 : Vec Ideal S1152 .f32) (x3 A3 : Vec Ideal S384x384 .bf16) (x4 A4 : Vec Ideal S384 .f32) (x5 A5 : Vec Ideal S12x49x49 .f32)
    (h1 : x1 = A1) (h2 : x2 = A2) (h3 : x3 = A3) (h4 : x4 = A4) (h5 : x5 = A5) (tv : Nat)
    (hx0 : ∀ (y : S1568x384.Idx) (i : S200704x384.Idx), (i 0).val = 1568 * tv + (y 0).val → (i 1).val = (y 1).val → x0 y = X i)
    (y : S1568x384.Idx) (i : S200704x384.Idx) (hi0 : (i 0).val = 1568 * tv + (y 0).val) (hi1 : (i 1).val = (y 1).val) :
    out0_6 x0 x1 x2 x3 x4 x5 y = stagedOut X A1 A2 A3 A4 A5 i := by
  subst h1 h2 h3 h4 h5
  obtain ⟨r, o, rfl⟩ : ∃ (r : Fin 1568) (o : Fin 384), y = ix2 r o := ⟨y 0, y 1, eq_ix2 y⟩
  obtain ⟨R, o', rfl⟩ : ∃ (R : Fin 200704) (o' : Fin 384), i = ix2 R o' := ⟨i 0, i 1, eq_ix2 i⟩
  obtain rfl : o' = o := Fin.ext hi1
  obtain ⟨wl, n, rfl⟩ := exists_blockRow r
  have hR : R.val = 1568 * tv + (49 * wl.val + n.val) := hi0
  have hwl := wl.isLt
  have hn := n.isLt
  rw [out_block_apply]
  show _ = winOut _ _ _ _ (rowTok R) o'
  have hn' : rowTok R = n := Fin.ext (by rw [rowTok_val]; omega)
  rw [hn']
  congr 1
  funext n' j
  congr 1
  refine Finset.sum_congr rfl fun k _ => ?_
  congr 1
  have hn'' := n'.isLt
  exact hx0 _ _ (by show (arrRow (rowWin R) n').val = 1568 * tv + (blockRow wl n').val; rw [arrRow_val, rowWin_val, blockRow_val]; omega) rfl

/-! ## A point's blocks, read off the staged arrays -/

/-- The block index of every window at every grid point, decided over the 128 points: the input rows and the output
    rows move with the point, every other window is fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0
    ∧ win0_6.index t (0 : Fin 2) = t.val ∧ win0_6.index t (1 : Fin 2) = 0 :=
  (by decide +kernel : ∀ t : Fin grid0.N, _)

/-- The input block at point `t` holds rows `1568·t …` of the regrouped input. -/
theorem iblk0_apply (c : Dev nD) (t : Fin cfg0.N) (y : S1568x384.Idx) (i : S200704x384.Idx)
    (hi0 : (i 0).val = 1568 * t.val + (y 0).val) (hi1 : (i 1).val = (y 1).val) :
    (iblk m c 0 t : Vec Ideal S1568x384 .f32) y = (V m c main_v21 : Vec Ideal S200704x384 .f32) i := by
  obtain ⟨e00, e01, -⟩ := idx_facts t
  show V m c main_v21 (((cfg0.win 0).blk t).view.emb y) = V m c main_v21 i
  refine congrArg (V m c main_v21) ?_
  funext a; apply Fin.ext
  match a with
  | ⟨0, _⟩ => show win0_0.index t (0 : Fin 2) * 1568 + 1 * (y 0).val = (i 0).val; omega
  | ⟨1, _⟩ => show win0_0.index t (1 : Fin 2) * 384 + 1 * (y 1).val = (i 1).val; omega

/-- The fused weight's block is the whole staged weight, -/
theorem iblk1_eq (c : Dev nD) (t : Fin cfg0.N) : (iblk m c 1 t : Vec Ideal S384x1152 .bf16) = V m c main_v18 := by
  obtain ⟨-, -, e10, e11, -⟩ := idx_facts t
  funext y
  show V m c main_v18 (((cfg0.win 1).blk t).view.emb y) = V m c main_v18 y
  refine congrArg (V m c main_v18) ?_
  funext a; apply Fin.ext
  match a with
  | ⟨0, _⟩ => show win0_1.index t (0 : Fin 2) * 384 + 1 * (y 0).val = (y 0).val; omega
  | ⟨1, _⟩ => show win0_1.index t (1 : Fin 2) * 1152 + 1 * (y 1).val = (y 1).val; omega

/-- the fused bias's the whole staged bias, -/
theorem iblk2_eq (c : Dev nD) (t : Fin cfg0.N) : (iblk m c 2 t : Vec Ideal S1152 .f32) = V m c main_v16 := by
  obtain ⟨-, -, -, -, e20, -⟩ := idx_facts t
  funext y
  show V m c main_v16 (((cfg0.win 2).blk t).view.emb y) = V m c main_v16 y
  refine congrArg (V m c main_v16) ?_
  funext a; apply Fin.ext
  match a with
  | ⟨0, _⟩ => show win0_2.index t (0 : Fin 1) * 1152 + 1 * (y 0).val = (y 0).val; omega

/-- the output projection's the whole staged projection, -/
theorem iblk3_eq (c : Dev nD) (t : Fin cfg0.N) : (iblk m c 3 t : Vec Ideal S384x384 .bf16) = V m c main_v20 := by
  obtain ⟨-, -, -, -, -, e30, e31, -⟩ := idx_facts t
  funext y
  show V m c main_v20 (((cfg0.win 3).blk t).view.emb y) = V m c main_v20 y
  refine congrArg (V m c main_v20) ?_
  funext a; apply Fin.ext
  match a with
  | ⟨0, _⟩ => show win0_3.index t (0 : Fin 2) * 384 + 1 * (y 0).val = (y 0).val; omega
  | ⟨1, _⟩ => show win0_3.index t (1 : Fin 2) * 384 + 1 * (y 1).val = (y 1).val; omega

/-- its bias's the whole bias, -/
theorem iblk4_eq (c : Dev nD) (t : Fin cfg0.N) : (iblk m c 4 t : Vec Ideal S384 .f32) = V m c main_arg4 := by
  obtain ⟨-, -, -, -, -, -, -, e40, -⟩ := idx_facts t
  funext y
  show V m c main_arg4 (((cfg0.win 4).blk t).view.emb y) = V m c main_arg4 y
  refine congrArg (V m c main_arg4) ?_
  funext a; apply Fin.ext
  match a with
  | ⟨0, _⟩ => show win0_4.index t (0 : Fin 1) * 384 + 1 * (y 0).val = (y 0).val; omega

/-- and the position biases' all twelve heads' tables. -/
theorem iblk5_eq (c : Dev nD) (t : Fin cfg0.N) : (iblk m c 5 t : Vec Ideal S12x49x49 .f32) = V m c main_v9 := by
  obtain ⟨-, -, -, -, -, -, -, -, e50, e51, e52, -⟩ := idx_facts t
  funext y
  show V m c main_v9 (((cfg0.win 5).blk t).view.emb y) = V m c main_v9 y
  refine congrArg (V m c main_v9) ?_
  funext a; apply Fin.ext
  match a with
  | ⟨0, _⟩ => show win0_5.index t (0 : Fin 3) * 12 + 1 * (y 0).val = (y 0).val; omega
  | ⟨1, _⟩ => show win0_5.index t (1 : Fin 3) * 49 + 1 * (y 1).val = (y 1).val; omega
  | ⟨2, _⟩ => show win0_5.index t (2 : Fin 3) * 49 + 1 * (y 2).val = (y 2).val; omega

/-! ## From the blocks to the array -/

/-- The region's output array, from the arrays the region finds. -/
def G (c : Dev nD) : Vec Ideal S200704x384 .f32 :=
  stagedOut (V m c main_v21) (V m c main_v18) (V m c main_v16) (V m c main_v20) (V m c main_arg4) (V m c main_v9)

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  funext j
  obtain ⟨-, -, -, -, -, -, -, -, -, -, -, e60, e61⟩ := idx_facts t
  show out0_6 (iblk m c 0 t) (iblk m c 1 t) (iblk m c 2 t) (iblk m c 3 t) (iblk m c 4 t) (iblk m c 5 t) j
    = G m c (((cfg0.win 6).blk t).view.emb j)
  refine block_entry (V m c main_v21) (iblk m c 0 t) (iblk m c 1 t) (V m c main_v18) (iblk m c 2 t) (V m c main_v16)
    (iblk m c 3 t) (V m c main_v20) (iblk m c 4 t) (V m c main_arg4) (iblk m c 5 t) (V m c main_v9)
    (iblk1_eq m c t) (iblk2_eq m c t) (iblk3_eq m c t) (iblk4_eq m c t) (iblk5_eq m c t) t.val
    (fun y i h0 h1 => iblk0_apply m c t y i h0 h1) j (((cfg0.win 6).blk t).view.emb j) ?_ ?_
  · show win0_6.index t (0 : Fin 2) * 1568 + 1 * (j 0).val = 1568 * t.val + (j 0).val; omega
  · show win0_6.index t (1 : Fin 2) * 384 + 1 * (j 1).val = (j 1).val; omega

/-- An index of the array is in point `t`'s block iff each coordinate is in the block's range on its axis. -/
theorem mem_blk (t : Fin cfg0.N) (i : S200704x384.Idx) :
    i ∈ ((cfg0.win 6).blk t).view.set ↔ ∀ a : Fin 2, win0_6.index t a * S1568x384.size a ≤ (i a).val ∧ (i a).val < win0_6.index t a * S1568x384.size a + S1568x384.size a := by
  show i ∈ ((View.whole main_v22).slice (win0_6.rect t)).set ↔ _
  rw [View.set_slice_whole, Rect.mem_set_unit]
  exact Iff.rfl

/-- Every row of the array is written: row `R` by point `R / 1568`. -/
theorem cover (i : S200704x384.Idx) : ∃ t : Fin cfg0.N, (cfg0.win 6).flush t = true ∧ i ∈ ((cfg0.win 6).blk t).view.set := by
  have h0 : (i 0).val < 200704 := (i 0).isLt
  have h1 : (i 1).val < 384 := (i 1).isLt
  obtain ⟨t, ht⟩ : ∃ t : Fin cfg0.N, t.val = (i 0).val / 1568 := ⟨⟨(i 0).val / 1568, by rw [show cfg0.N = 128 from N_0]; omega⟩, rfl⟩
  refine ⟨t, flush0_6 t, ?_⟩
  rw [mem_blk]
  obtain ⟨-, -, -, -, -, -, -, -, -, -, -, e60, e61⟩ := idx_facts t
  intro a
  match a with
  | ⟨0, _⟩ => show win0_6.index t (0 : Fin 2) * 1568 ≤ (i 0).val ∧ (i 0).val < win0_6.index t (0 : Fin 2) * 1568 + 1568; omega
  | ⟨1, _⟩ => show win0_6.index t (1 : Fin 2) * 384 ≤ (i 1).val ∧ (i 1).val < win0_6.index t (1 : Fin 2) * 384 + 384; omega

/-- So the region's output array ends holding `G`. -/
theorem final (c : Dev nD) : (dats m 0 c).arrAt 6 cfg0.N = G m c :=
  (dats m 0 c).arrAt_eq_of_cover 6 (G m c) (fun t _ => flushed_eq m c t) (fun i => cover i)

/-! ## The arrays the host stages before the region -/

/-- The per-column factor as the host builds it: the scale over the first 384 entries, one over the other 768. -/
def factorVec : FVec Ideal S1152 .f32 :=
  concatenate S1152 0 [⟨S384, broadcastInDim S384 ![] bcast_S_S384 (constant (F := Ideal) S_ .f32 0x3E3504F3#32)⟩,
    ⟨S768, broadcastInDim S768 ![] bcast_S_S768 (constant (F := Ideal) S_ .f32 0x3F800000#32)⟩] concatenates_S384_S768_S1152_d0

/-- The input regrouped to rows, -/
theorem V_v21 (c : Dev nD) : (V m c main_v21 : S200704x384.Idx → EReal)
    = shapeCast S200704x384 (m ((c.tc : Thread nD τ).loc main_arg0)) shapeCasts_S4096x49x384_S200704x384 := by
  show StableHlo.after hostOps0 (fun b => m (c, b)) (Proc.devRef .tc main_v21) = _
  after_results
  rfl

/-- the output projection transposed, -/
theorem V_v20 (c : Dev nD) : (V m c main_v20 : S384x384.Idx → EReal)
    = (truncf (F := Ideal) .bf16 (transpose S384x384 [1, 0] (m ((c.tc : Thread nD τ).loc main_arg3) : FVec Ideal S384x384 .f32)
        transposes_S384x384_S384x384_1_0) bitsLt_bf16_f32 : FVec Ideal S384x384 .bf16) := by
  show StableHlo.after hostOps0 (fun b => m (c, b)) (Proc.devRef .tc main_v20) = _
  after_results

/-- the fused bias times the factor, -/
theorem V_v16 (c : Dev nD) : (V m c main_v16 : S1152.Idx → EReal)
    = (mulf (F := Ideal) (m ((c.tc : Thread nD τ).loc main_arg2) : FVec Ideal S1152 .f32) factorVec : FVec Ideal S1152 .f32) := by
  show StableHlo.after hostOps0 (fun b => m (c, b)) (Proc.devRef .tc main_v16) = _
  after_results
  rfl

/-- the fused weight with each row times its factor, transposed, -/
theorem V_v18 (c : Dev nD) : (V m c main_v18 : S384x1152.Idx → EReal)
    = (truncf (F := Ideal) .bf16 (transpose S384x1152 [1, 0] (mulf (F := Ideal) (m ((c.tc : Thread nD τ).loc main_arg1) : FVec Ideal S1152x384 .f32)
        (broadcastInDim S1152x384 ![0, 1] bcast_S1152x1_S1152x384_0_1 (broadcastInDim S1152x1 ![0] bcast_S1152_S1152x1_0 factorVec)))
        transposes_S1152x384_S384x1152_1_0) bitsLt_bf16_f32 : FVec Ideal S384x1152 .bf16) := by
  show StableHlo.after hostOps0 (fun b => m (c, b)) (Proc.devRef .tc main_v18) = _
  after_results
  rfl

/-- and the position biases gathered and laid out head first. -/
theorem V_v9 (c : Dev nD) : (V m c main_v9 : S12x49x49.Idx → EReal)
    = biasTerm (F := Ideal) (m ((c.tc : Thread nD τ).loc main_arg5)) (m ((c.tc : Thread nD τ).loc main_arg6)) := by
  show StableHlo.after hostOps0 (fun b => m (c, b)) (Proc.devRef .tc main_v9) = _
  after_results
  rfl

/-! ## The staged arrays read at an entry -/

/-- The factor vector at column `j`: the scale on the query columns, one on the rest. -/
theorem factorVec_apply (j : Fin 1152) :
    factorVec (ix1 j) = foldFactor (Ideal.ofBits .f32 0x3E3504F3#32) (Ideal.ofBits .f32 0x3F800000#32) j := by
  unfold factorVec foldFactor
  have hj' : j.val < 1152 := j.isLt
  by_cases hj : j.val < 384
  · rw [if_pos hj]
    exact (concatenate_pair_apply_left (t := S1152) (s₁ := S384) (s₂ := S768) (0 : Fin 1) _ _ concatenates_S384_S768_S1152_d0
      (ix1 j : S1152.Idx) rfl (ix1 (⟨j.val, hj⟩ : Fin 384) : S384.Idx) (fun b => match b with | ⟨0, _⟩ => rfl)).trans rfl
  · rw [if_neg hj]
    exact (concatenate_pair_apply_right (t := S1152) (s₁ := S384) (s₂ := S768) (0 : Fin 1) _ _ concatenates_S384_S768_S1152_d0
      (ix1 j : S1152.Idx) rfl rfl (ix1 (⟨j.val - 384, by omega⟩ : Fin 768) : S768.Idx)
      (fun b hb => absurd (Fin.ext (by have hb' : b.val < 1 := b.isLt; show b.val = 0; omega)) hb)
      (by show (j.val - 384) + 384 = j.val; omega)).trans rfl

/-- Row `R` of the regrouped input is token `R % 49` of window `R / 49`. -/
theorem regroup_apply (x : S4096x49x384.Idx → EReal) (R : Fin 200704) (k : Fin 384) :
    shapeCast S200704x384 x shapeCasts_S4096x49x384_S200704x384 (ix2 R k) = x (ix3 (rowWin R) (rowTok R) k) := by
  refine shapeCast_apply x _ (ix2 R k) (ix3 (rowWin R) (rowTok R) k) ?_
  rw [Shape.rowMajor_val_three, Shape.rowMajor_val_two]
  show (R.val / 49 * 49 + R.val % 49) * 384 + k.val = R.val * 384 + k.val
  omega

/-- The result regrouped back: entry `(w, n, o)` is row `49·w + n`. -/
theorem ungroup_apply (x : S200704x384.Idx → EReal) (w : Fin 4096) (n : Fin 49) (o : Fin 384) :
    shapeCast S4096x49x384 x shapeCasts_S200704x384_S4096x49x384 (ix3 w n o) = x (ix2 (arrRow w n) o) := by
  refine shapeCast_apply x _ (ix3 w n o) (ix2 (arrRow w n) o) ?_
  rw [Shape.rowMajor_val_three, Shape.rowMajor_val_two]
  show (49 * w.val + n.val) * 384 + o.val = (w.val * 49 + n.val) * 384 + o.val
  omega

/-- The staged weight at `(k, j)` is the fused weight at `(j, k)` times column `j`'s factor. -/
theorem weight_apply (W : FVec Ideal S1152x384 .f32) (fv : FVec Ideal S1152 .f32) (k : Fin 384) (j : Fin 1152) :
    (truncf (F := Ideal) .bf16 (transpose S384x1152 [1, 0] (mulf (F := Ideal) W
        (broadcastInDim S1152x384 ![0, 1] bcast_S1152x1_S1152x384_0_1 (broadcastInDim S1152x1 ![0] bcast_S1152_S1152x1_0 fv)))
        transposes_S1152x384_S384x1152_1_0) bitsLt_bf16_f32 : FVec Ideal S384x1152 .bf16) (ix2 k j) = W (ix2 j k) * fv (ix1 j) := by
  refine (truncf_apply (ψ := .bf16) _ bitsLt_bf16_f32 (ix2 k j)).trans ?_
  refine (transpose_ix2_apply _ transposes_S1152x384_S384x1152_1_0 k j).trans ?_
  refine (mulf_apply _ _ _).trans ?_
  congr 1
  refine (broadcastInDim_apply _ bcast_S1152x1_S1152x384_0_1 _ (ix2 j k) (ix2 j (0 : Fin 1))
    (fun a => match a with | ⟨0, _⟩ => rfl | ⟨1, _⟩ => rfl)).trans ?_
  exact broadcastInDim_apply _ bcast_S1152_S1152x1_0 _ (ix2 j (0 : Fin 1)) (ix1 j) (fun a => match a with | ⟨0, _⟩ => rfl)

/-- The staged output projection at `(k, o)` is the projection at `(o, k)`. -/
theorem proj_apply (P : FVec Ideal S384x384 .f32) (k o : Fin 384) :
    (truncf (F := Ideal) .bf16 (transpose S384x384 [1, 0] P transposes_S384x384_S384x384_1_0) bitsLt_bf16_f32 : FVec Ideal S384x384 .bf16) (ix2 k o)
      = P (ix2 o k) :=
  (truncf_apply (ψ := .bf16) _ bitsLt_bf16_f32 (ix2 k o)).trans (transpose_ix2_apply _ transposes_S384x384_S384x384_1_0 k o)

theorem rowWin_arrRow (w : Fin 4096) (n : Fin 49) : rowWin (arrRow w n) = w :=
  Fin.ext (by have := n.isLt; rw [rowWin_val, arrRow_val]; omega)
theorem rowTok_arrRow (w : Fin 4096) (n : Fin 49) : rowTok (arrRow w n) = n :=
  Fin.ext (by have := n.isLt; rw [rowTok_val, arrRow_val]; omega)

/-- With the staged arrays read back to the arguments, the region's output at row `49·w + n` is window `w`'s output at
    token `n` of the folded projection. -/
theorem stagedOut_apply (X : Vec Ideal S200704x384 .f32) (x1 : Vec Ideal S384x1152 .bf16) (x2 : Vec Ideal S1152 .f32)
    (x3 : Vec Ideal S384x384 .bf16) (x4 : Vec Ideal S384 .f32) (x5 : Vec Ideal S12x49x49 .f32)
    (A0 : S4096x49x384.Idx → EReal) (A1 : S1152x384.Idx → EReal) (A2 : S1152.Idx → EReal) (A3 : S384x384.Idx → EReal)
    (σ : Fin 1152 → EReal)
    (hX : ∀ (R : Fin 200704) (k : Fin 384), X (ix2 R k) = A0 (ix3 (rowWin R) (rowTok R) k))
    (h1 : ∀ (k : Fin 384) (j : Fin 1152), x1 (ix2 k j) = A1 (ix2 j k) * σ j)
    (h2 : ∀ j : Fin 1152, x2 (ix1 j) = A2 (ix1 j) * σ j)
    (h3 : ∀ k o : Fin 384, x3 (ix2 k o) = A3 (ix2 o k))
    (w : Fin 4096) (n : Fin 49) (o : Fin 384) :
    stagedOut X x1 x2 x3 x4 x5 (ix2 (arrRow w n) o)
      = attnOut (qkvFolded (fun w n k => A0 (ix3 w n k)) (fun j k => A1 (ix2 j k)) (fun j => A2 (ix1 j)) σ)
          (fun h a b => x5 (ix3 h a b)) (fun o k => A3 (ix2 o k)) (fun o => x4 (ix1 o)) (ix3 w n o) := by
  unfold stagedOut attnOut
  show winOut _ _ _ _ (rowTok (arrRow w n)) o = winOut _ _ _ _ n o
  rw [rowTok_arrRow]
  congr 1
  · funext n' j
    show (∑ k : Fin 384, X (ix2 (arrRow (rowWin (arrRow w n)) n') k) * x1 (ix2 k j)) + x2 (ix1 j)
      = (∑ k : Fin 384, A0 (ix3 w n' k) * (A1 (ix2 j k) * σ j)) + A2 (ix1 j) * σ j
    rw [h2, rowWin_arrRow]
    congr 1
    refine Finset.sum_congr rfl fun k _ => ?_
    rw [hX, h1, rowWin_arrRow, rowTok_arrRow]
  · funext o' k
    exact h3 k o'

/-! ## The result -/

/-- The region's output at row `49·w + n` is the result at `(w, n)`: each staged array read back to its argument. -/
theorem G_apply (c : Dev nD) (w : Fin 4096) (n : Fin 49) (o : Fin 384) :
    G m c (ix2 (arrRow w n) o) = result m c (ix3 w n o) := by
  unfold G result
  refine (stagedOut_apply (V m c main_v21) (V m c main_v18) (V m c main_v16) (V m c main_v20) (V m c main_arg4) (V m c main_v9)
    (m ((c.tc : Thread nD τ).loc main_arg0)) (m ((c.tc : Thread nD τ).loc main_arg1)) (m ((c.tc : Thread nD τ).loc main_arg2))
    (m ((c.tc : Thread nD τ).loc main_arg3)) (foldFactor (Ideal.ofBits .f32 0x3E3504F3#32) (Ideal.ofBits .f32 0x3F800000#32))
    (fun R k => (congrFun (V_v21 m c) (ix2 R k)).trans (regroup_apply _ R k))
    (fun k j => (congrFun (V_v18 m c) (ix2 k j)).trans ((weight_apply _ factorVec k j).trans (by rw [factorVec_apply])))
    (fun j => (congrFun (V_v16 m c) (ix1 j)).trans ((mulf_apply _ _ _).trans (by rw [factorVec_apply])))
    (fun k o => (congrFun (V_v20 m c) (ix2 k o)).trans (proj_apply _ k o)) w n o).trans ?_
  rw [V_v9 m c, V_main_arg4 m c]

/-- The one host operation after the region regroups the region's output to windows of tokens: the result. -/
theorem tail_eq (c : Dev nD) : Pipeline.afterTail₀ cfgs (dats m) 0 (V0 m) [hostOps1] c main_v23 = result m c := by
  unfold Pipeline.afterTail₀
  show StableHlo.after hostOps1 _ (Proc.devRef .tc main_v23) = _
  after_results
  funext i
  obtain ⟨w, n, o, rfl⟩ : ∃ (w : Fin 4096) (n : Fin 49) (o : Fin 384), i = ix3 w n o := ⟨i 0, i 1, i 2, eq_ix3 i⟩
  refine (ungroup_apply _ w n o).trans ?_
  refine (congrFun ((Pipeline.withArrays_arr spec0 launch0.win.arr_inj c _ _ 6).trans (final m c)) (ix2 (arrRow w n) o)).trans ?_
  exact G_apply m c w n o

/-- Every weakly fair execution of the program ends with the result array at `result` and the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ArrayValue

end
-- ==== Proof.ReferenceValue.lean ====
/-
  The reference program's result as the window-attention function.

  The reference projects every token to 1152 columns, regroups them as queries, keys and values per head, scales the
  queries, and per window and head takes the scores, their softmax along the key axis, the weighted values, the heads
  side by side, and the output projection. Read entry by entry that is `attnOut` of the projection with the scale
  applied to the query columns afterwards.
-/
import proofs.«419807_j43267500540185_3_alg».proof.Proof.Gen.ReferenceIdeal.Read
import proofs.«419807_j43267500540185_3_alg».proof.Proof.WindowAttention
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.WindowAttention

section Stages

variable (x0 : (⟨S4096x49x384, .f32⟩ : BufTy).Contents (Elt Ideal)) (x1 : (⟨S1152x384, .f32⟩ : BufTy).Contents (Elt Ideal))
  (x2 : (⟨S1152, .f32⟩ : BufTy).Contents (Elt Ideal)) (x3 : (⟨S384x384, .f32⟩ : BufTy).Contents (Elt Ideal))
  (x4 : (⟨S384, .f32⟩ : BufTy).Contents (Elt Ideal)) (x5 : (⟨S169x12, .f32⟩ : BufTy).Contents (Elt Ideal))
  (x6 : (⟨S49x49, .i32⟩ : BufTy).Contents (Elt Ideal))

/-- The fused projection with the scale on its query columns, in the arguments' own words. -/
local notation "QKV" =>
  qkvScaled (fun w n k => x0 (ix3 w n k)) (fun j k => x1 (ix2 j k)) (fun j => x2 (ix1 j)) (Ideal.ofBits FTy.f32 0x3E3504F3#32)

/-- The position bias per head, as the gathered table read at (head, query, key). -/
local notation "BIAS" => (fun (h : Fin 12) (a b : Fin 49) => val_main_v24 (F := Ideal) x5 x6 (ix3 h a b))

/-! ### The projection and its regrouping -/

/-- Column `384 t + 32 h + e` of the fused projection: part `t` (queries, keys, values), head `h`, channel `e`. -/
def partCol (t : Fin 3) (h : Fin 12) (e : Fin 32) : Fin 1152 :=
  ⟨384 * t.val + (32 * h.val + e.val), by have := t.isLt; have := h.isLt; have := e.isLt; omega⟩

/-- The projection before any scale: token `(w, n)` against row `j` of the weight, plus the bias. -/
theorem proj_at (w : Fin 4096) (n : Fin 49) (j : Fin 1152) :
    val_main_v3 (F := Ideal) x0 x1 x2 (ix3 w n j) = (∑ c : Fin 384, x0 (ix3 w n c) * x1 (ix2 j c)) + x2 (ix1 j) := by
  rw [val_main_v3_apply, val_main_v0_apply, val_main_v2_apply, val_main_v1_apply]
  have el : ∀ k : Fin 384, lidx_main_v0 (ix3 w n j) k = ix3 w n k := fun k => funext fun a =>
    match a with | ⟨0, _⟩ => rfl | ⟨1, _⟩ => rfl | ⟨2, _⟩ => rfl
  have er : ∀ k : Fin 384, ridx_main_v0 (ix3 w n j) k = ix2 j k := fun k => funext fun a =>
    match a with | ⟨0, _⟩ => rfl | ⟨1, _⟩ => rfl
  have eb : idx_main_v1 (idx_main_v2 (ix3 w n j)) = ix1 j := funext fun a => match a with | ⟨0, _⟩ => rfl
  rw [eb]
  simp only [el, er]
  rfl

/-- Regrouped as [window, token, part, head, channel] and transposed to [part, window, head, token, channel], the
    entry is the projection's at column `partCol t h e`: the five coordinates flatten to
    `((((w·49 + n)·3 + t)·12 + h)·32 + e`, whose quotient by 49·1152 is `w`, whose quotient by 1152 is `n` modulo 49,
    and whose remainder modulo 1152 is `384 t + 32 h + e`. -/
theorem regroup_at (t : Fin 3) (w : Fin 4096) (h : Fin 12) (n : Fin 49) (e : Fin 32) :
    val_main_v5 (F := Ideal) x0 x1 x2 (ix5 t w h n e) = val_main_v3 (F := Ideal) x0 x1 x2 (ix3 w n (partCol t h e)) := by
  rw [val_main_v5_apply, val_main_v4_apply]
  refine congrArg _ (funext fun a => Fin.ext ?_)
  have := t.isLt; have := w.isLt; have := h.isLt; have := n.isLt; have := e.isLt
  match a with
  | ⟨0, _⟩ => show ((((w.val * 49 + n.val) * 3 + t.val) * 12 + h.val) * 32 + e.val) / 56448 = w.val; omega
  | ⟨1, _⟩ => show ((((w.val * 49 + n.val) * 3 + t.val) * 12 + h.val) * 32 + e.val) / 1152 % 49 = n.val; omega
  | ⟨2, _⟩ =>
    show ((((w.val * 49 + n.val) * 3 + t.val) * 12 + h.val) * 32 + e.val) % 1152 = 384 * t.val + (32 * h.val + e.val); omega

/-- Dropping the leading unit axis of a [1, window, head, token, channel] slice keeps the four coordinates: they
    flatten to `((w·12 + h)·49 + n)·32 + e` and are read back off it by quotients and remainders. -/
theorem unit_at (w : Fin 4096) (h : Fin 12) (n : Fin 49) (e : Fin 32) (a : Fin 5) :
    (idx_main_v7 (ix4 w h n e) a).val = (ix5 (0 : Fin 1) w h n e a).val := by
  have := w.isLt; have := h.isLt; have := n.isLt; have := e.isLt
  match a with
  | ⟨0, _⟩ => rfl
  | ⟨1, _⟩ => show (((w.val * 12 + h.val) * 49 + n.val) * 32 + e.val) / 18816 % 4096 = w.val; omega
  | ⟨2, _⟩ => show (((w.val * 12 + h.val) * 49 + n.val) * 32 + e.val) / 1568 % 12 = h.val; omega
  | ⟨3, _⟩ => show (((w.val * 12 + h.val) * 49 + n.val) * 32 + e.val) / 32 % 49 = n.val; omega
  | ⟨4, _⟩ => show (((w.val * 12 + h.val) * 49 + n.val) * 32 + e.val) % 32 = e.val; omega

/-! ### Queries, keys and values -/

/-- The slice of part 0, its unit axis dropped, is the regrouped array at part 0. -/
theorem part0_at (w : Fin 4096) (h : Fin 12) (n : Fin 49) (e : Fin 32) :
    val_main_v7 (F := Ideal) x0 x1 x2 (ix4 w h n e) = val_main_v3 (F := Ideal) x0 x1 x2 (ix3 w n (partCol 0 h e)) := by
  rw [val_main_v7_apply, val_main_v6_apply, ← regroup_at]
  refine congrArg _ (funext fun a => Fin.ext ?_)
  match a with
  | ⟨0, _⟩ => rfl
  | ⟨1, _⟩ => exact unit_at w h n e 1
  | ⟨2, _⟩ => exact unit_at w h n e 2
  | ⟨3, _⟩ => exact unit_at w h n e 3
  | ⟨4, _⟩ => exact unit_at w h n e 4

/-- Likewise part 1, -/
theorem part1_at (w : Fin 4096) (h : Fin 12) (n : Fin 49) (e : Fin 32) :
    val_main_v9 (F := Ideal) x0 x1 x2 (ix4 w h n e) = val_main_v3 (F := Ideal) x0 x1 x2 (ix3 w n (partCol 1 h e)) := by
  rw [val_main_v9_apply, val_main_v8_apply, ← regroup_at]
  refine congrArg _ (funext fun a => Fin.ext ?_)
  match a with
  | ⟨0, _⟩ => rfl
  | ⟨1, _⟩ => exact unit_at w h n e 1
  | ⟨2, _⟩ => exact unit_at w h n e 2
  | ⟨3, _⟩ => exact unit_at w h n e 3
  | ⟨4, _⟩ => exact unit_at w h n e 4

/-- and part 2. -/
theorem part2_at (w : Fin 4096) (h : Fin 12) (n : Fin 49) (e : Fin 32) :
    val_main_v11 (F := Ideal) x0 x1 x2 (ix4 w h n e) = val_main_v3 (F := Ideal) x0 x1 x2 (ix3 w n (partCol 2 h e)) := by
  rw [val_main_v11_apply, val_main_v10_apply, ← regroup_at]
  refine congrArg _ (funext fun a => Fin.ext ?_)
  match a with
  | ⟨0, _⟩ => rfl
  | ⟨1, _⟩ => exact unit_at w h n e 1
  | ⟨2, _⟩ => exact unit_at w h n e 2
  | ⟨3, _⟩ => exact unit_at w h n e 3
  | ⟨4, _⟩ => exact unit_at w h n e 4

theorem partCol_zero (h : Fin 12) (e : Fin 32) : partCol 0 h e = qCol h e :=
  Fin.ext (show 384 * 0 + (32 * h.val + e.val) = 32 * h.val + e.val by omega)
theorem partCol_one (h : Fin 12) (e : Fin 32) : partCol 1 h e = kCol h e :=
  Fin.ext (show 384 * 1 + (32 * h.val + e.val) = 384 + (32 * h.val + e.val) by omega)
theorem partCol_two (h : Fin 12) (e : Fin 32) : partCol 2 h e = vCol h e :=
  Fin.ext (show 384 * 2 + (32 * h.val + e.val) = 768 + (32 * h.val + e.val) by omega)

/-- The scaled queries are the scaled projection at the query columns (below 384, where the scale applies), -/
theorem q_at (w : Fin 4096) (h : Fin 12) (n : Fin 49) (e : Fin 32) :
    val_main_v13 (F := Ideal) x0 x1 x2 (ix4 w h n e) = QKV w n (qCol h e) := by
  rw [val_main_v13_apply, part0_at, proj_at, val_main_v12_apply, val_main_cst_apply, partCol_zero]
  have hq : (qCol h e).val < 384 := by have := h.isLt; have := e.isLt; show 32 * h.val + e.val < 384; omega
  unfold qkvScaled
  rw [if_pos hq]
  rfl

/-- the keys the projection at the key columns (from 384 on, left unscaled), -/
theorem k_at (w : Fin 4096) (h : Fin 12) (n : Fin 49) (e : Fin 32) :
    val_main_v9 (F := Ideal) x0 x1 x2 (ix4 w h n e) = QKV w n (kCol h e) := by
  rw [part1_at, proj_at, partCol_one]
  have hk : ¬ (kCol h e).val < 384 := by show ¬ 384 + (32 * h.val + e.val) < 384; omega
  unfold qkvScaled
  rw [if_neg hk]

/-- and the values at the value columns (from 768 on, left unscaled). -/
theorem v_at (w : Fin 4096) (h : Fin 12) (n : Fin 49) (e : Fin 32) :
    val_main_v11 (F := Ideal) x0 x1 x2 (ix4 w h n e) = QKV w n (vCol h e) := by
  rw [part2_at, proj_at, partCol_two]
  have hv : ¬ (vCol h e).val < 384 := by show ¬ 768 + (32 * h.val + e.val) < 384; omega
  unfold qkvScaled
  rw [if_neg hv]

/-! ### Scores -/

/-- One window's and head's row of scores for query token `n`: the spec's `scores` of that head's query and key
    columns of the scaled projection, with the head's position bias. -/
def row (w : Fin 4096) (h : Fin 12) (n : Fin 49) : Fin 49 → EReal :=
  scores (fun n' e => QKV w n' (qCol h e)) (fun n' e => QKV w n' (kCol h e)) (BIAS h) n

/-- The scores array at (window, head, query, key): the inner product over the head's 32 channels of the scaled query
    with the key, plus the bias, which is the same for every window. -/
theorem scores_at (w : Fin 4096) (h : Fin 12) (n m : Fin 49) :
    val_main_v27 (F := Ideal) x0 x1 x2 x5 x6 (ix4 w h n m) = row x0 x1 x2 x5 x6 w h n m := by
  rw [val_main_v27_apply, val_main_v14_apply, val_main_v26_apply, val_main_v25_apply]
  have el : ∀ k : Fin 32, lidx_main_v14 (ix4 w h n m) k = ix4 w h n k := fun k => funext fun a =>
    match a with | ⟨0, _⟩ => rfl | ⟨1, _⟩ => rfl | ⟨2, _⟩ => rfl | ⟨3, _⟩ => rfl
  have er : ∀ k : Fin 32, ridx_main_v14 (ix4 w h n m) k = ix4 w h m k := fun k => funext fun a =>
    match a with | ⟨0, _⟩ => rfl | ⟨1, _⟩ => rfl | ⟨2, _⟩ => rfl | ⟨3, _⟩ => rfl
  have eb : idx_main_v25 (idx_main_v26 (ix4 w h n m)) = ix3 h n m := funext fun a =>
    match a with | ⟨0, _⟩ => rfl | ⟨1, _⟩ => rfl | ⟨2, _⟩ => rfl
  rw [eb]
  simp only [el, er, q_at, k_at]
  rfl

/-! ### The softmax along the key axis -/

/-- `-∞` is the least extended real, so a maximum against it changes nothing. -/
theorem neg_inf_max (y : EReal) : max (Ideal.ofBits .f32 0xFF800000#32) y = y := by
  simp [Ideal.ofBits, Ideal.ieee]

/-- The (window, head, query) index with key `k` put back on the last axis. -/
theorem lift_at (hr : S4096x12x49x49.Reduces [3] S4096x12x49) (w : Fin 4096) (h : Fin 12) (n : Fin 49)
    (k : Fin (S4096x12x49x49.size 3)) : hr.lift (ix3 w h n) k = ix4 w h n (⟨k.val, k.isLt⟩ : Fin 49) := by
  funext c; apply Fin.ext
  fin_cases c <;> rfl

/-- The reduction by maximum over the key axis, from `-∞`: a maximum is commutative and associative, so the
    reduction is the fold over the 49 keys in any order, which is the row's `rowMax`. -/
theorem max_at (w : Fin 4096) (h : Fin 12) (n : Fin 49) :
    val_main_v28 (F := Ideal) x0 x1 x2 x5 x6 (ix3 w h n) = rowMax (row x0 x1 x2 x5 x6 w h n) := by
  have hr : S4096x12x49x49.Reduces [3] S4096x12x49 := by decide
  unfold val_main_v28
  rw [Host.reduce_eq_fold_single (FloatOps.maximumf (F := Ideal) (φ := .f32)) _ _ _ hr _]
  have hf : (val_main_v27 (F := Ideal) x0 x1 x2 x5 x6 ∘ hr.lift (ix3 w h n)) = row x0 x1 x2 x5 x6 w h n :=
    funext fun k => by
      show val_main_v27 (F := Ideal) x0 x1 x2 x5 x6 (hr.lift (ix3 w h n) k) = _
      rw [lift_at, scores_at]
      rfl
  unfold rowMax
  exact congrArg (fun f => Finset.fold max (Ideal.ofBits .f32 0xFF800000#32) f (Finset.univ : Finset (Fin 49))) hf

/-- The further maximum against a splat of `-∞` leaves the row's maximum as it is. -/
theorem rowMax_at (w : Fin 4096) (h : Fin 12) (n : Fin 49) :
    val_main_v30 (F := Ideal) x0 x1 x2 x5 x6 (ix3 w h n) = rowMax (row x0 x1 x2 x5 x6 w h n) := by
  rw [val_main_v30_apply, val_main_v29_apply, val_main_cst_2_apply, max_at]
  exact neg_inf_max _

/-- The exponential of a score less its row's maximum, the maximum being broadcast back along the key axis. -/
theorem exp_at (w : Fin 4096) (h : Fin 12) (n m : Fin 49) :
    val_main_v34 (F := Ideal) x0 x1 x2 x5 x6 (ix4 w h n m) = rowExp (row x0 x1 x2 x5 x6 w h n) m := by
  rw [val_main_v34_apply, val_main_v33_apply, val_main_v32_apply, val_main_v31_apply, scores_at]
  have e : idx_main_v31 (idx_main_v32 (ix4 w h n m)) = ix3 w h n := funext fun a =>
    match a with | ⟨0, _⟩ => rfl | ⟨1, _⟩ => rfl | ⟨2, _⟩ => rfl
  rw [e, rowMax_at]
  rfl

/-- The row's sum of those exponentials; the reduction starts from zero. -/
theorem sum_at (w : Fin 4096) (h : Fin 12) (n : Fin 49) :
    val_main_v35 (F := Ideal) x0 x1 x2 x5 x6 (ix3 w h n) = ∑ k : Fin 49, rowExp (row x0 x1 x2 x5 x6 w h n) k := by
  rw [val_main_v35_apply, val_main_cst_3_apply]
  have e : ∀ k : Fin 49, idx_main_v35 (ix3 w h n) k = ix4 w h n k := fun k => funext fun a =>
    match a with | ⟨0, _⟩ => rfl | ⟨1, _⟩ => rfl | ⟨2, _⟩ => rfl | ⟨3, _⟩ => rfl
  simp only [e, exp_at]
  rw [Ideal.ofBits_def, Ideal.ofBits_zero_f32, zero_add]

/-- The softmax weight: the exponential over the row's sum, the sum being broadcast back along the key axis. -/
theorem softmax_at (w : Fin 4096) (h : Fin 12) (n m : Fin 49) :
    val_main_v38 (F := Ideal) x0 x1 x2 x5 x6 (ix4 w h n m) = rowSoftmax (row x0 x1 x2 x5 x6 w h n) m := by
  rw [val_main_v38_apply, val_main_v37_apply, val_main_v36_apply, exp_at]
  have e : idx_main_v36 (idx_main_v37 (ix4 w h n m)) = ix3 w h n := funext fun a =>
    match a with | ⟨0, _⟩ => rfl | ⟨1, _⟩ => rfl | ⟨2, _⟩ => rfl
  rw [e, sum_at]
  rfl

/-! ### The heads' outputs, side by side -/

/-- The values weighted by the softmax, summed over the 49 keys. The reference writes each product as value times
    weight and the specification as weight times value. -/
theorem head_at (w : Fin 4096) (h : Fin 12) (d : Fin 32) (n : Fin 49) :
    val_main_v39 (F := Ideal) x0 x1 x2 x5 x6 (ix4 w h d n) = winHead (QKV w) BIAS h n d := by
  rw [val_main_v39_apply]
  have el : ∀ k : Fin 49, lidx_main_v39 (ix4 w h d n) k = ix4 w h k d := fun k => funext fun a =>
    match a with | ⟨0, _⟩ => rfl | ⟨1, _⟩ => rfl | ⟨2, _⟩ => rfl | ⟨3, _⟩ => rfl
  have er : ∀ k : Fin 49, ridx_main_v39 (ix4 w h d n) k = ix4 w h n k := fun k => funext fun a =>
    match a with | ⟨0, _⟩ => rfl | ⟨1, _⟩ => rfl | ⟨2, _⟩ => rfl | ⟨3, _⟩ => rfl
  simp only [el, er, v_at, softmax_at]
  unfold winHead headOut
  exact Finset.sum_congr rfl fun m _ => mul_comm _ _

/-- Transposed to [window, token, head, channel] and flattened to 384 columns, column `c` holds head `c / 32`,
    channel `c % 32`: the three coordinates flatten to `(w·49 + n)·384 + c`, whose quotient by 32 is `c / 32` modulo 12
    and whose remainder modulo 32 is `c % 32`. -/
theorem concat_at (w : Fin 4096) (n : Fin 49) (c : Fin 384) :
    val_main_v41 (F := Ideal) x0 x1 x2 x5 x6 (ix3 w n c) = winHead (QKV w) BIAS (headOf c) n (chanOf c) := by
  rw [val_main_v41_apply, val_main_v40_apply, ← head_at]
  refine congrArg _ (funext fun a => Fin.ext ?_)
  have := w.isLt; have := n.isLt; have := c.isLt
  match a with
  | ⟨0, _⟩ => show ((w.val * 49 + n.val) * 384 + c.val) / 18816 = w.val; omega
  | ⟨1, _⟩ => show ((w.val * 49 + n.val) * 384 + c.val) / 32 % 12 = c.val / 32; omega
  | ⟨2, _⟩ => show ((w.val * 49 + n.val) * 384 + c.val) % 32 = c.val % 32; omega
  | ⟨3, _⟩ => show ((w.val * 49 + n.val) * 384 + c.val) / 384 % 49 = n.val; omega

end Stages

/-- The reference's result is the window-attention function of its arguments. -/
theorem ref_value (x0 : (⟨S4096x49x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal))
    (x4 : (⟨S384, .f32⟩ : BufTy).Contents (Elt Ideal)) (x5 : (⟨S169x12, .f32⟩ : BufTy).Contents (Elt Ideal))
    (x6 : (⟨S49x49, .i32⟩ : BufTy).Contents (Elt Ideal)) :
    val_main_v45 (F := Ideal) x0 x1 x2 x3 x4 x5 x6
      = attnOut
          (qkvScaled (fun w n k => x0 (ix3 w n k)) (fun j k => x1 (ix2 j k)) (fun j => x2 (ix1 j)) (Ideal.ofBits .f32 0x3E3504F3#32))
          (fun h a b => val_main_v24 (F := Ideal) x5 x6 (ix3 h a b))
          (fun o k => x3 (ix2 o k)) (fun o => x4 (ix1 o)) := by
  funext i
  obtain ⟨w, n, o, rfl⟩ : ∃ (w : Fin 4096) (n : Fin 49) (o : Fin 384), i = ix3 w n o := ⟨i 0, i 1, i 2, eq_ix3 i⟩
  rw [val_main_v45_apply, val_main_v42_apply, val_main_v44_apply, val_main_v43_apply]
  have el : ∀ k : Fin 384, lidx_main_v42 (ix3 w n o) k = ix3 w n k := fun k => funext fun a =>
    match a with | ⟨0, _⟩ => rfl | ⟨1, _⟩ => rfl | ⟨2, _⟩ => rfl
  have er : ∀ k : Fin 384, ridx_main_v42 (ix3 w n o) k = ix2 o k := fun k => funext fun a =>
    match a with | ⟨0, _⟩ => rfl | ⟨1, _⟩ => rfl
  have eb : idx_main_v43 (idx_main_v44 (ix3 w n o)) = ix1 o := funext fun a => match a with | ⟨0, _⟩ => rfl
  rw [eb]
  simp only [el, er, concat_at]
  rfl

end Cert.ReferenceIdeal.RefValue

end
-- ==== Proof.ScaleFold.lean ====
/-
  Folding the queries' scale into the projection beforehand, or applying it afterwards, is the same on finite data.

  For real `x`, `w`, `b` and a real factor `s`: `∑ x·(w·s) + b·s = (∑ x·w + b)·s`, distributivity over a finite sum of
  reals (it fails at the infinities, which is why the data has to be finite); with the factor `1` both sides are
  `∑ x·w + b` on every extended real.
-/
import proofs.«419807_j43267500540185_3_alg».proof.Proof.WindowAttention
import Idealize.ShloMosaic.PureOps.Ideal.Laws

noncomputable section

open scoped BigOperators

namespace Cert.WindowAttention

open Idealize.ShloMosaic

namespace ScaleFold

/-- The coercion of the reals into the extended reals carries a finite sum to the sum of the coercions:
    it carries `0` to `0` and a sum of two reals to the sum, so induct on the index set. -/
theorem coe_finsetSum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The scale's word has an exponent field that is not all ones, so it denotes a real number (which one is not needed). -/
theorem scale_real : ∃ r : ℝ, Ideal.ofBits .f32 0x3E3504F3#32 = (r : EReal) := by
  simp only [Ideal.ofBits, Ideal.ieee]
  simp [-EReal.coe_mul]

/-- The word of `1.0` denotes the extended real `1`. -/
theorem one_word : Ideal.ofBits .f32 0x3F800000#32 = 1 := by
  simp [Ideal.ofBits, Ideal.ieee, -EReal.coe_mul]; norm_num

end ScaleFold

/-- On finite inputs the projection with the scale folded in beforehand equals the one scaled afterwards. -/
theorem qkvFolded_eq_qkvScaled (X : Fin 4096 → Fin 49 → Fin 384 → EReal) (W : Fin 1152 → Fin 384 → EReal) (b : Fin 1152 → EReal)
    (hX : ∀ w n c, ∃ r : ℝ, X w n c = (r : EReal)) (hW : ∀ j c, ∃ r : ℝ, W j c = (r : EReal)) (hb : ∀ j, ∃ r : ℝ, b j = (r : EReal)) :
    qkvFolded X W b (foldFactor (Ideal.ofBits .f32 0x3E3504F3#32) (Ideal.ofBits .f32 0x3F800000#32))
      = qkvScaled X W b (Ideal.ofBits .f32 0x3E3504F3#32) := by
  -- name the real behind every entry, and the real behind the scale
  choose x hx using hX
  choose u hu using hW
  choose β hβ using hb
  obtain ⟨s, hs⟩ := ScaleFold.scale_real
  funext w n j
  unfold qkvFolded qkvScaled foldFactor
  by_cases hj : j.val < 384
  · -- a query column: both sides are coercions of reals, and in the reals it is distributivity over the sum
    rw [if_pos hj, if_pos hj, hs, hβ j]
    simp only [hx, hu]
    simp only [← EReal.coe_mul, ← ScaleFold.coe_finsetSum, ← EReal.coe_add]
    congr 1
    rw [add_mul, Finset.sum_mul]
    congr 1
    exact Finset.sum_congr rfl fun c _ => (mul_assoc _ _ _).symm
  · -- a key or value column: the factor is `1`, which changes nothing on any extended real
    rw [if_neg hj, if_neg hj, ScaleFold.one_word]
    simp only [mul_one]

end Cert.WindowAttention

end
-- ==== Proof.FiniteInputs.lean ====
/-
  The precondition read entry by entry: every entry of the input, of the fused weight and of the fused bias is a real
  number (the precondition says its absolute value is below `+∞`, which on the extended reals leaves the reals).
-/
import proofs.«419807_j43267500540185_3_alg».proof.Defs
import proofs.«419807_j43267500540185_3_alg».proof.Proof.Gen.Pre_finite_inputs
import Idealize.ShloMosaic.Lib.ReduceAll
import Idealize.ShloMosaic.Lib.ValueIdx

noncomputable section

namespace Cert.FiniteInputs

open Idealize.ShloMosaic Idealize.ShloMosaic.TcCoe Idealize.SL.Sem

/-- The rank-0 shape has exactly one index: there is no axis to differ on. -/
instance : Subsingleton Cert.Pre_finite_inputs.S_.Idx := ⟨fun _ _ => funext fun d => d.elim0⟩

/-- The word the precondition compares against denotes `+∞`. -/
theorem inf_word : Ideal.ofBits .f32 0x7F800000#32 = (⊤ : EReal) := by
  simp [Ideal.ofBits, Ideal.ieee]

/-- An extended real whose absolute value `max x (-x)` lies strictly below `+∞` is a real number: at `-∞` and at
    `+∞` the absolute value is `+∞`, which is not below itself. -/
theorem real_of_abs_lt (x : EReal)
    (h : Ideal.cmp .olt (max x (-x)) (Ideal.ofBits .f32 0x7F800000#32) = 1#1) : ∃ r : ℝ, x = (r : EReal) := by
  rw [inf_word] at h
  -- the comparison's word is the bit of the strict inequality; were the inequality false the word would be `0`
  have hbit : BitVec.ofBool (decide (max x (-x) < ⊤)) = 1#1 := h
  have hlt : max x (-x) < ⊤ := by
    by_contra hn
    rw [decide_eq_false hn] at hbit
    exact absurd hbit (by decide)
  induction x using EReal.rec with
  | bot => simp at hlt
  | top => simp at hlt
  | coe r => exact ⟨r, rfl⟩

/-- Under the precondition the three arrays the scale law reads hold real numbers only. -/
theorem real_of_pre [hPre : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  -- the predicate's one result word, on this device
  have h0 := congrFun (h c) ValueIdx.ix0
  dsimp only [Cert.Pre_finite_inputs.fn, Cert.Pre_finite_inputs.fn_part1] at h0
  -- the conjunction is nested to the left: peel the three outer conjuncts off, then split the inner three
  obtain ⟨h5, -⟩ := IntOp.andi_eq_one.1 h0
  obtain ⟨h4, -⟩ := IntOp.andi_eq_one.1 h5
  obtain ⟨h3, -⟩ := IntOp.andi_eq_one.1 h4
  obtain ⟨h2, hb⟩ := IntOp.andi_eq_one.1 h3
  obtain ⟨hx, hw⟩ := IntOp.andi_eq_one.1 h2
  -- each is an "all" over one array: every entry's comparison came out true, and that entry is then a real
  refine ⟨fun i => ?_, fun i => ?_, fun i => ?_⟩
  · exact real_of_abs_lt _ (Host.reduce_andi_all _ _ _ _ _ hx i)
  · exact real_of_abs_lt _ (Host.reduce_andi_all _ _ _ _ _ hw i)
  · exact real_of_abs_lt _ (Host.reduce_andi_all _ _ _ _ _ hb i)

end Cert.FiniteInputs

end
-- ==== Proof.lean ====
/-
  The windowed multi-head self-attention kernel against its jnp reference, over the extended reals.

  The kernel works on blocks of 32 windows; in each window it projects the 49 tokens to queries, keys and values with
  the queries' scale `1/√32` (as its f32 word) folded into the projection's weight and bias rows on the host
  beforehand, and runs the 12 heads and the output projection. The reference projects first and scales the queries
  afterwards. Both are the same window-by-window function (`Cert.WindowAttention.attnOut`) of a fused projection, and the
  two projections agree on finite data: `∑ x·(w·s) + b·s = (∑ x·w + b)·s` is distributivity over a finite sum of reals,
  which is where the precondition is used. The position biases are the same gather of the same table on both sides and are
  never opened. Softmax, the order of the two factors in the weighted sum of values, and the regroupings differ only in
  spelling.

  The kernel's frames are the generated ones; the reference's frame is its generated run with the result dropped; the
  idealization rewrote nothing, so `preserves` is trivial.
-/
import proofs.«419807_j43267500540185_3_alg».proof.Defs
import proofs.«419807_j43267500540185_3_alg».proof.Proof.Gen.Kernel
import proofs.«419807_j43267500540185_3_alg».proof.Proof.Gen.Kernel.Skeleton
import proofs.«419807_j43267500540185_3_alg».proof.Proof.Gen.Kernel.Launch
import proofs.«419807_j43267500540185_3_alg».proof.Proof.Gen.Kernel.Points
import proofs.«419807_j43267500540185_3_alg».proof.Proof.Gen.Kernel.Frame
import proofs.«419807_j43267500540185_3_alg».proof.Proof.Gen.KernelIdeal
import proofs.«419807_j43267500540185_3_alg».proof.Proof.Gen.KernelIdeal.Skeleton
import proofs.«419807_j43267500540185_3_alg».proof.Proof.Gen.KernelIdeal.Launch
import proofs.«419807_j43267500540185_3_alg».proof.Proof.Gen.KernelIdeal.Points
import proofs.«419807_j43267500540185_3_alg».proof.Proof.Gen.KernelIdeal.Frame
import proofs.«419807_j43267500540185_3_alg».proof.Proof.Gen.ReferenceIdeal
import proofs.«419807_j43267500540185_3_alg».proof.Proof.Gen.Pre_finite_inputs
import proofs.«419807_j43267500540185_3_alg».proof.Proof.Gen.ReferenceIdeal.Run
import proofs.«419807_j43267500540185_3_alg».proof.Proof.Gen.ReferenceIdeal.Read
import proofs.«419807_j43267500540185_3_alg».proof.Proof.KernelArray
import proofs.«419807_j43267500540185_3_alg».proof.Proof.ReferenceValue
import proofs.«419807_j43267500540185_3_alg».proof.Proof.ScaleFold
import proofs.«419807_j43267500540185_3_alg».proof.Proof.FiniteInputs
import Idealize.ShloMosaic.Adequacy
import Idealize.ShloMosaic.Init

noncomputable section

namespace Cert.Proof

open Idealize.ShloMosaic Idealize.ShloMosaic.TcCoe Idealize.SL.Sem

/-- The position biases are one term on both sides: the kernel program's host lines and the reference's spell the same
    wrap, gather, regrouping and transposition of the same table. -/
theorem bias_same (x5 : (⟨Cert.KernelIdeal.S169x12, .f32⟩ : BufTy).Contents (Elt Ideal))
    (x6 : (⟨Cert.KernelIdeal.S49x49, .i32⟩ : BufTy).Contents (Elt Ideal)) :
    Cert.KernelIdeal.ArrayValue.biasTerm (F := Ideal) x5 x6 = Cert.ReferenceIdeal.Read.val_main_v24 (F := Ideal) x5 x6 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with every window's attention output: the kernel's with the scale folded into the projection, the
    reference's with the scale applied afterwards, equal on the finite inputs the precondition grants. -/
theorem algebraic : Cert.algebraic_KernelIdeal_ReferenceIdeal := by
  intro m ρ m' ρ' hpre hagree
  refine ⟨fun c => Cert.KernelIdeal.ArrayValue.result m c, Cert.KernelIdeal.ArrayValue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨f0, f1, f2⟩ := Cert.FiniteInputs.real_of_pre m hpre c
  rw [Cert.ReferenceIdeal.Read.val_main_v45_eq, Cert.ReferenceIdeal.RefValue.ref_value, a0, a1, a2, a3, a4, a5, a6]
  show _ = Cert.KernelIdeal.ArrayValue.result m c
  unfold Cert.KernelIdeal.ArrayValue.result
  rw [Cert.WindowAttention.qkvFolded_eq_qkvScaled _ _ _ (fun w n k => f0 _) (fun j k => f1 _) (fun j => f2 _)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
